-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S8192x1 : Shape := ⟨2, ![8192, 1]⟩
abbrev S1x8192 : Shape := ⟨2, ![1, 8192]⟩
abbrev S1024x1024 : Shape := ⟨2, ![1024, 1024]⟩
abbrev S1024x1 : Shape := ⟨2, ![1024, 1]⟩
abbrev S1x1024 : Shape := ⟨2, ![1, 1024]⟩
abbrev S1024 : Shape := ⟨1, ![1024]⟩
abbrev S8192 : Shape := ⟨1, ![8192]⟩
abbrev S_ : Shape := ⟨0, ![]⟩
abbrev S8192x2 : Shape := ⟨2, ![8192, 2]⟩

abbrev nBuf : Space → Nat
  | .hbm => 32
  | .vmem => 5
  | .smem => 0
  | _ => 0

abbrev bufTy : (tb : Table) → Fin (tcTables nBuf tb) → BufTy
  | .hbm, ⟨0, _⟩ => ⟨S8192x8192, .f32⟩
  | .hbm, ⟨1, _⟩ => ⟨S8192x1, .f32⟩
  | .hbm, ⟨2, _⟩ => ⟨S1x8192, .f32⟩
  | .hbm, ⟨3, _⟩ => ⟨S8192, .f32⟩
  | .hbm, ⟨4, _⟩ => ⟨S8192, .f32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S8192x1, .i32⟩
  | .hbm, ⟨21, _⟩ => ⟨S8192x1, .i32⟩
  | .hbm, ⟨22, _⟩ => ⟨S8192x2, .i32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1, .f32⟩
  | .local _ .vmem, ⟨3, _⟩ => ⟨S1024x1, .f32⟩
  | .local _ .vmem, ⟨4, _⟩ => ⟨S1x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32_13 : BitVec 32 := 1024#32
  let v33 : BitVec 32 := Scalar.muli arg1 c1024_i32_13
  v33
def k0_off1 (i : grid0.Coords) : Fin 2 → Nat :=
  let c0_14 : Index := 0#32
  let arg1 : BitVec 32 := BitVec.ofNat 32 (i 1).val
  let c1024_i32_13 : BitVec 32 := 1024#32
  let v33 : BitVec 32 := Scalar.muli arg1 c1024_i32_13
  let v34 : BitVec 32 := v33
  let v35 : Index := Scalar.indexCast v34
  ![0, v35.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  inb_S1024x1024_S1024x1024_0_0 : ∀ a, (![0, 0] : Fin 2 → Nat) a + S1024x1024.size a ≤ S1024x1024.size a
  h_S1024x1024 : 0 < S1024x1024.numel
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1024_S1024_2 : S1024x1024.Reduces [0] S1024
  shapeCasts_S1024_S1x1024 : S1024.ShapeCasts S1x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x8192_S1x8192_0_0 : ∀ a, (![0, 0] : Fin 2 → Nat) a + S1x8192.size a ≤ S1x8192.size a
  h_S1x8192 : 0 < S1x8192.numel
  h_S1x1024 : 0 < S1x1024.numel
  shapeCasts_S1x1024_S1x1024 : S1x1024.ShapeCasts S1x1024
  shapeCasts_S8192x1_S8192 : S8192x1.ShapeCasts S8192
  shapeCasts_S1x8192_S8192 : S1x8192.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192_S_d0 : S8192.ReducesTo [0] S_
  h_S_ : 0 < S_.numel
  gather_S8192x8192_S8192x2_S8192_n_01_n_n_01_1_11_wf : GatherDims.WF S8192x8192 S8192x2 S8192 [] [0, 1] [] [0, 1] [] 1 ![1, 1]
  hrank0 : 0 < grid0.rank
  k0_mult1_dvd : ∀ i : grid0.Coords, 128 ∣ (k0_mult1 i).toNat
  k0_off1_inb : ∀ i : grid0.Coords, ∀ a, (k0_off1 i) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)

variable [Facts₀]

def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1024x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x8192.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192 : Shape := ⟨1, ![8192]⟩
abbrev S_ : Shape := ⟨0, ![]⟩
abbrev S8192x1 : Shape := ⟨2, ![8192, 1]⟩
abbrev S8192x2 : Shape := ⟨2, ![8192, 2]⟩

abbrev nBuf : Space → Nat
  | .hbm => 56
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192, .i32⟩
  | .hbm, ⟨2, _⟩ => ⟨S_, .i32⟩
  | .hbm, ⟨3, _⟩ => ⟨S8192, .i32⟩
  | .hbm, ⟨4, _⟩ => ⟨S8192, .i1⟩
  | .hbm, ⟨5, _⟩ => ⟨S_, .i32⟩
  | .hbm, ⟨6, _⟩ => ⟨S8192, .i32⟩
  | .hbm, ⟨7, _⟩ => ⟨S8192, .i32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S8192x1, .i32⟩
  | .hbm, ⟨17, _⟩ => ⟨S8192x1, .i32⟩
  | .hbm, ⟨18, _⟩ => ⟨S8192x2, .i32⟩
  | .hbm, ⟨19, _⟩ => ⟨S8192, .f32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S8192x1, .i32⟩
  | .hbm, ⟨35, _⟩ => ⟨S8192x1, .i32⟩
  | .hbm, ⟨36, _⟩ => ⟨S8192x2, .i32⟩
  | .hbm, ⟨37, _⟩ => ⟨S_, .f32⟩
  | .hbm, ⟨38, _⟩ => ⟨S8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_3 : Ref sig .tc := ⟨.hbm, 20, rfl⟩
abbrev main_v15 : Ref sig .tc := ⟨.hbm, 21, rfl⟩
abbrev main_v16 : Ref sig .tc := ⟨.hbm, 22, rfl⟩
abbrev main_c_4 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_5 : Ref sig .tc := ⟨.hbm, 27, rfl⟩
abbrev main_v20 : Ref sig .tc := ⟨.hbm, 28, rfl⟩
abbrev main_v21 : Ref sig .tc := ⟨.hbm, 29, rfl⟩
abbrev main_c_6 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_8 : Ref sig .tc := ⟨.hbm, 44, rfl⟩
abbrev main_v33 : Ref sig .tc := ⟨.hbm, 45, rfl⟩
abbrev main_cst_9 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_10 : Ref sig .tc := ⟨.hbm, 52, rfl⟩
abbrev main_v39 : Ref sig .tc := ⟨.hbm, 53, rfl⟩
abbrev main_cst_11 : Ref sig .tc := ⟨.hbm, 54, rfl⟩
abbrev main_v40 : Ref sig .tc := ⟨.hbm, 55, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  bcast_S_S8192x8192 : S_.BroadcastsInDim S8192x8192 (![] : Fin 0 → Fin S8192x8192.rank)
  reducesTo_S8192x8192_S8192_d1 : S8192x8192.ReducesTo [1] S8192
  h_S_ : 0 < S_.numel
  reducesTo_S8192x8192_S8192_d0 : S8192x8192.ReducesTo [0] S8192
  reducesTo_S8192_S_d0 : S8192.ReducesTo [0] S_
  gather_S8192x8192_S8192x2_S8192_n_01_n_n_01_1_11_wf : GatherDims.WF S8192x8192 S8192x2 S8192 [] [0, 1] [] [0, 1] [] 1 ![1, 1]
  scatter_S8192x8192_S8192x2_S8192_n_01_01_1_wf : ScatterDims.WF S8192x8192 S8192x2 S8192 [] [0, 1] [0, 1] 1

variable [Facts₀]

def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf

class Facts : Prop extends Facts₀ where

variable [Facts]
-- ==== Proof.KBody.lean ====
/-
  The kernel body at one grid point, by cases of the two resets, and what it leaves in the two accumulators.

  The grid is 8 x 8 points in row-major order, point t = 8 * bi + bj. The body reads the tile (bi, bj) of the matrix,
  forms the tile of exponentials, and adds the tile's row sums into the column block bi of the first result (a 1024 x 1
  buffer kept while bj runs, zeroed when bj = 0) and the tile's column sums into the slice bj of the second result
  (a 1 x 8192 buffer kept over the whole grid, zeroed at the first point). Three cases meet the grid: the first point
  (both buffers zeroed), the start of a later row of tiles (only the first buffer zeroed), every other point (neither).
-/
import proofs.«166390_j58007828300256_1_alg».proof.Proof.Gen.Kernel.Skeleton
import proofs.«166390_j58007828300256_1_alg».proof.Proof.Gen.Kernel.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two resets, decided over the grid -/

/-- The first buffer is zeroed: the point's column coordinate is 0. -/
abbrev rowReset (i : grid0.Coords) : Prop :=
  (Scalar.cmpi .ne (Scalar.extui (Scalar.cmpi .eq (BitVec.ofNat 32 (i 1).val) 0#32)) 0#32) = 1#1

theorem rowReset_iff : ∀ t : Fin cfg0.N, rowReset (grid0.coords t) ↔ t.val % 8 = 0 :=
  (by decide +kernel : ∀ t : Fin grid0.N, rowReset (grid0.coords t) ↔ t.val % 8 = 0)

/-- The second buffer is zeroed: both coordinates are 0. -/
abbrev colReset (i : grid0.Coords) : Prop :=
  (Scalar.cmpi .ne (Scalar.extui (Scalar.andi (Scalar.cmpi .eq (BitVec.ofNat 32 (i 0).val) 0#32)
    (Scalar.cmpi .eq (BitVec.ofNat 32 (i 1).val) 0#32))) 0#32) = 1#1

theorem colReset_iff : ∀ t : Fin cfg0.N, colReset (grid0.coords t) ↔ t.val = 0 :=
  (by decide +kernel : ∀ t : Fin grid0.N, colReset (grid0.coords t) ↔ t.val = 0)

/-- The staging memrefs the pipeline hands the body at point `t`. -/
abbrev tileRef (t : Fin cfg0.N) : Memref sig .tc .vmem S1024x1024 .f32 := win0_0.stage (cfg0.slots t 0)
abbrev tileRef_whole (t : Fin cfg0.N) : (tileRef t).IsWhole := hstage0_0 ((cfg0.slots t 0).cast nbuf0_0)
abbrev rowRef (t : Fin cfg0.N) : Memref sig .tc .vmem S1024x1 .f32 := win0_1.stage (cfg0.slots t 1)
abbrev rowRef_whole (t : Fin cfg0.N) : (rowRef t).IsWhole := hstage0_1 ((cfg0.slots t 1).cast nbuf0_1)
abbrev colRef (t : Fin cfg0.N) : Memref sig .tc .vmem S1x8192 .f32 := win0_2.stage (cfg0.slots t 2)
abbrev colRef_whole (t : Fin cfg0.N) : (colRef t).IsWhole := hstage0_2 ((cfg0.slots t 2).cast nbuf0_2)

abbrev RowPieces (F : FTy → Type) := List (View.Piece (Elt F) S1024x1 .f32)
abbrev ColPieces (F : FTy → Type) := List (View.Piece (Elt F) S1x8192 .f32)

/-! ## The body's run in each case -/

set_option maxHeartbeats 1000000 in
/-- THE FIRST POINT. Both buffers hold anything; the body zeroes both and adds the tile's sums. The stores it leaves
    in each buffer are the witness the run finds. -/
noncomputable def runFirst (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : rowReset i) (hc : colReset i) (x : Vec F S1024x1024 .f32) :
    { L : RowPieces F × ColPieces F //
      ∀ (E : Set ℕ) (K : PUnit → sProp 𝕄),
        iprop(owns (c : Thread nD τ) a2 fullShare x ∗ (∃ d, owns (c : Thread nD τ) a3 fullShare d) ∗ (∃ d, owns (c : Thread nD τ) a4 fullShare d)
            ∗ (iprop(owns (c : Thread nD τ) a2 fullShare x
                ∗ (∃ f, a3.view.loc (c : Thread nD τ) ↦[a3.view.set]{fullShare} a3.view.writes (Elt F) f L.1)
                ∗ (∃ f, a4.view.loc (c : Thread nD τ) ↦[a4.view.set]{fullShare} a4.view.writes (Elt F) f L.2)) -∗ K ⟨⟩))
          ⊢ wp frame (wpE (defs₀ (F := F)) Variants.none c none) E (cc0__npair_kernel i a2 h2 a3 h3 a4 h4) K } := by
  refine ⟨(?_, ?_), fun E K => ?run⟩
  case run =>
    simp only [cc0__npair_kernel_eq_skeleton]; unfold cc0__npair_kernel_skel
    simp only [k0_part1_eq_skeleton]
    unfold owns
    iintro ⟨⟨%f0, %hf0, H0⟩, ⟨%d1, %f1, -, H1⟩, ⟨%d2, %f2, -, H2⟩, Hk⟩
    obtain rfl := h2.eq_unread hf0
    sl_exec (disch := first | exact hr | exact hc)
    sl_step
    iapply Hk
    isplitl [H0]
    · iexists _; isplitr; · ipureintro; exact h2.read_unread _
      iexact H0
    isplitl [H1]
    · iexists _; iexact H1
    iexists _; iexact H2

set_option maxHeartbeats 1000000 in
/-- THE START OF A LATER ROW OF TILES. The first buffer holds anything and is zeroed; the second holds the running
    column sums `s`, of which the body updates one slice. -/
noncomputable def runRowStart (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : rowReset i) (hc : ¬colReset i) (x : Vec F S1024x1024 .f32) (s : Vec F S1x8192 .f32) :
    { L : RowPieces F × ColPieces F //
      ∀ (E : Set ℕ) (K : PUnit → sProp 𝕄),
        iprop(owns (c : Thread nD τ) a2 fullShare x ∗ (∃ d, owns (c : Thread nD τ) a3 fullShare d) ∗ owns (c : Thread nD τ) a4 fullShare s
            ∗ (iprop(owns (c : Thread nD τ) a2 fullShare x
                ∗ (∃ f, a3.view.loc (c : Thread nD τ) ↦[a3.view.set]{fullShare} a3.view.writes (Elt F) f L.1)
                ∗ a4.view.loc (c : Thread nD τ) ↦[a4.view.set]{fullShare} a4.view.writes (Elt F) (h4.unread s) L.2) -∗ K ⟨⟩))
          ⊢ wp frame (wpE (defs₀ (F := F)) Variants.none c none) E (cc0__npair_kernel i a2 h2 a3 h3 a4 h4) K } := by
  refine ⟨(?_, ?_), fun E K => ?run⟩
  case run =>
    simp only [cc0__npair_kernel_eq_skeleton]; unfold cc0__npair_kernel_skel
    simp only [k0_part1_eq_skeleton]
    unfold owns
    iintro ⟨⟨%f0, %hf0, H0⟩, ⟨%d1, %f1, -, H1⟩, ⟨%f2, %hf2, H2⟩, Hk⟩
    obtain rfl := h2.eq_unread hf0; obtain rfl := h4.eq_unread hf2
    sl_exec (disch := first | exact hr | exact hc)
    sl_step
    iapply Hk
    isplitl [H0]
    · iexists _; isplitr; · ipureintro; exact h2.read_unread _
      iexact H0
    isplitl [H1]
    · iexists _; iexact H1
    iexact H2

set_option maxHeartbeats 1000000 in
/-- EVERY OTHER POINT. The first buffer holds the running row sums `r`, the second the running column sums `s`. -/
noncomputable def runInner (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : ¬rowReset i) (hc : ¬colReset i) (x : Vec F S1024x1024 .f32) (r : Vec F S1024x1 .f32) (s : Vec F S1x8192 .f32) :
    { L : RowPieces F × ColPieces F //
      ∀ (E : Set ℕ) (K : PUnit → sProp 𝕄),
        iprop(owns (c : Thread nD τ) a2 fullShare x ∗ owns (c : Thread nD τ) a3 fullShare r ∗ owns (c : Thread nD τ) a4 fullShare s
            ∗ (iprop(owns (c : Thread nD τ) a2 fullShare x
                ∗ (∃ f, a3.view.loc (c : Thread nD τ) ↦[a3.view.set]{fullShare} a3.view.writes (Elt F) f L.1)
                ∗ a4.view.loc (c : Thread nD τ) ↦[a4.view.set]{fullShare} a4.view.writes (Elt F) (h4.unread s) L.2) -∗ K ⟨⟩))
          ⊢ wp frame (wpE (defs₀ (F := F)) Variants.none c none) E (cc0__npair_kernel i a2 h2 a3 h3 a4 h4) K } := by
  refine ⟨(?_, ?_), fun E K => ?run⟩
  case run =>
    simp only [cc0__npair_kernel_eq_skeleton]; unfold cc0__npair_kernel_skel
    simp only [k0_part1_eq_skeleton]
    unfold owns
    iintro ⟨⟨%f0, %hf0, H0⟩, ⟨%f1, %hf1, H1⟩, ⟨%f2, %hf2, H2⟩, Hk⟩
    obtain rfl := h2.eq_unread hf0; obtain rfl := h3.eq_unread hf1; obtain rfl := h4.eq_unread hf2
    sl_exec (disch := first | exact hr | exact hc)
    sl_step
    iapply Hk
    isplitl [H0]
    · iexists _; isplitr; · ipureintro; exact h2.read_unread _
      iexact H0
    isplitl [H1]
    · iexists _; iexact H1
    iexact H2

/-! ## What each case leaves in the two buffers -/

/-- The first buffer after the first point: the run's stores read back (they cover it). -/
def rowFirst (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : rowReset i) (hc : colReset i) (x : Vec F S1024x1024 .f32) : Vec F S1024x1 .f32 :=
  a3.view.read (Elt F) (a3.view.writes (Elt F) a3.view.junk (runFirst c i a2 h2 a3 h3 a4 h4 hr hc x).1.1)

/-- The second buffer after the first point: the run's stores read back (the zero fill covers it). -/
def colFirst (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : rowReset i) (hc : colReset i) (x : Vec F S1024x1024 .f32) : Vec F S1x8192 .f32 :=
  a4.view.read (Elt F) (a4.view.writes (Elt F) a4.view.junk (runFirst c i a2 h2 a3 h3 a4 h4 hr hc x).1.2)

/-- The first buffer after the start of a later row of tiles. -/
def rowRowStart (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : rowReset i) (hc : ¬colReset i) (x : Vec F S1024x1024 .f32) (s : Vec F S1x8192 .f32) : Vec F S1024x1 .f32 :=
  a3.view.read (Elt F) (a3.view.writes (Elt F) a3.view.junk (runRowStart c i a2 h2 a3 h3 a4 h4 hr hc x s).1.1)

/-- The second buffer after the start of a later row of tiles: the running sums `s` with one slice stored over. -/
def colRowStart (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : rowReset i) (hc : ¬colReset i) (x : Vec F S1024x1024 .f32) (s : Vec F S1x8192 .f32) : Vec F S1x8192 .f32 :=
  a4.view.read (Elt F) (a4.view.writes (Elt F) (h4.unread s) (runRowStart c i a2 h2 a3 h3 a4 h4 hr hc x s).1.2)

/-- The first buffer after any other point. -/
def rowInner (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : ¬rowReset i) (hc : ¬colReset i) (x : Vec F S1024x1024 .f32) (r : Vec F S1024x1 .f32) (s : Vec F S1x8192 .f32) :
    Vec F S1024x1 .f32 :=
  a3.view.read (Elt F) (a3.view.writes (Elt F) a3.view.junk (runInner c i a2 h2 a3 h3 a4 h4 hr hc x r s).1.1)

/-- The second buffer after any other point: the running sums `s` with one slice stored over. -/
def colInner (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : ¬rowReset i) (hc : ¬colReset i) (x : Vec F S1024x1024 .f32) (r : Vec F S1024x1 .f32) (s : Vec F S1x8192 .f32) :
    Vec F S1x8192 .f32 :=
  a4.view.read (Elt F) (a4.view.writes (Elt F) (h4.unread s) (runInner c i a2 h2 a3 h3 a4 h4 hr hc x r s).1.2)

/-- In every case the first buffer is stored whole, -/
theorem rowFirst_cover (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : rowReset i) (hc : colReset i) (x : Vec F S1024x1024 .f32) (y : S1024x1.Idx) :
    ∃ pc ∈ (runFirst c i a2 h2 a3 h3 a4 h4 hr hc x).1.1, y ∈ pc.1.set :=
  View.cover_of_wholeMem _ (by unfold runFirst; dsimp only; sl_whole_mem) y

theorem rowRowStart_cover (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : rowReset i) (hc : ¬colReset i) (x : Vec F S1024x1024 .f32) (s : Vec F S1x8192 .f32) (y : S1024x1.Idx) :
    ∃ pc ∈ (runRowStart c i a2 h2 a3 h3 a4 h4 hr hc x s).1.1, y ∈ pc.1.set :=
  View.cover_of_wholeMem _ (by unfold runRowStart; dsimp only; sl_whole_mem) y

theorem rowInner_cover (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : ¬rowReset i) (hc : ¬colReset i) (x : Vec F S1024x1024 .f32) (r : Vec F S1024x1 .f32) (s : Vec F S1x8192 .f32)
    (y : S1024x1.Idx) :
    ∃ pc ∈ (runInner c i a2 h2 a3 h3 a4 h4 hr hc x r s).1.1, y ∈ pc.1.set :=
  View.cover_of_wholeMem _ (by unfold runInner; dsimp only; sl_whole_mem) y

/-- and at the first point the second buffer too (by its zero fill). -/
theorem colFirst_cover (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : rowReset i) (hc : colReset i) (x : Vec F S1024x1024 .f32) (y : S1x8192.Idx) :
    ∃ pc ∈ (runFirst c i a2 h2 a3 h3 a4 h4 hr hc x).1.2, y ∈ pc.1.set :=
  View.cover_of_wholeMem _ (by unfold runFirst; dsimp only; sl_whole_mem) y

/-! ## The accumulation over the grid -/

theorem N_eq : cfg0.N = 64 := N_0

theorem not_colReset_succ (n : ℕ) (hn : n + 1 < cfg0.N) : ¬colReset (grid0.coords ⟨n + 1, hn⟩) := fun h => by
  have := (colReset_iff ⟨n + 1, hn⟩).mp h; exact Nat.succ_ne_zero n this

/-- What the two buffers hold after the body at point `n`: at the first point what the first case leaves; at the
    start of a later row of tiles the first buffer afresh and the second over what the point before left; at any
    other point both over what the point before left. -/
def outsAt (c : Dev nD) : (n : ℕ) → n < cfg0.N → Vec F S1024x1 .f32 × Vec F S1x8192 .f32
  | 0, hn =>
    (rowFirst c (grid0.coords ⟨0, hn⟩) (tileRef ⟨0, hn⟩) (tileRef_whole ⟨0, hn⟩) (rowRef ⟨0, hn⟩) (rowRef_whole ⟨0, hn⟩) (colRef ⟨0, hn⟩) (colRef_whole ⟨0, hn⟩)
        ((rowReset_iff ⟨0, hn⟩).mpr (Nat.zero_mod _)) ((colReset_iff ⟨0, hn⟩).mpr rfl) (iblk m c 0 ⟨0, hn⟩),
     colFirst c (grid0.coords ⟨0, hn⟩) (tileRef ⟨0, hn⟩) (tileRef_whole ⟨0, hn⟩) (rowRef ⟨0, hn⟩) (rowRef_whole ⟨0, hn⟩) (colRef ⟨0, hn⟩) (colRef_whole ⟨0, hn⟩)
        ((rowReset_iff ⟨0, hn⟩).mpr (Nat.zero_mod _)) ((colReset_iff ⟨0, hn⟩).mpr rfl) (iblk m c 0 ⟨0, hn⟩))
  | n + 1, hn =>
    if h0 : (n + 1) % 8 = 0 then
      (rowRowStart c (grid0.coords ⟨n + 1, hn⟩) (tileRef ⟨n + 1, hn⟩) (tileRef_whole ⟨n + 1, hn⟩) (rowRef ⟨n + 1, hn⟩) (rowRef_whole ⟨n + 1, hn⟩) (colRef ⟨n + 1, hn⟩) (colRef_whole ⟨n + 1, hn⟩)
          ((rowReset_iff ⟨n + 1, hn⟩).mpr h0) (not_colReset_succ n hn) (iblk m c 0 ⟨n + 1, hn⟩) (outsAt c n (Nat.lt_of_succ_lt hn)).2,
       colRowStart c (grid0.coords ⟨n + 1, hn⟩) (tileRef ⟨n + 1, hn⟩) (tileRef_whole ⟨n + 1, hn⟩) (rowRef ⟨n + 1, hn⟩) (rowRef_whole ⟨n + 1, hn⟩) (colRef ⟨n + 1, hn⟩) (colRef_whole ⟨n + 1, hn⟩)
          ((rowReset_iff ⟨n + 1, hn⟩).mpr h0) (not_colReset_succ n hn) (iblk m c 0 ⟨n + 1, hn⟩) (outsAt c n (Nat.lt_of_succ_lt hn)).2)
    else
      (rowInner c (grid0.coords ⟨n + 1, hn⟩) (tileRef ⟨n + 1, hn⟩) (tileRef_whole ⟨n + 1, hn⟩) (rowRef ⟨n + 1, hn⟩) (rowRef_whole ⟨n + 1, hn⟩) (colRef ⟨n + 1, hn⟩) (colRef_whole ⟨n + 1, hn⟩)
          (fun h => h0 ((rowReset_iff ⟨n + 1, hn⟩).mp h)) (not_colReset_succ n hn) (iblk m c 0 ⟨n + 1, hn⟩)
          (outsAt c n (Nat.lt_of_succ_lt hn)).1 (outsAt c n (Nat.lt_of_succ_lt hn)).2,
       colInner c (grid0.coords ⟨n + 1, hn⟩) (tileRef ⟨n + 1, hn⟩) (tileRef_whole ⟨n + 1, hn⟩) (rowRef ⟨n + 1, hn⟩) (rowRef_whole ⟨n + 1, hn⟩) (colRef ⟨n + 1, hn⟩) (colRef_whole ⟨n + 1, hn⟩)
          (fun h => h0 ((rowReset_iff ⟨n + 1, hn⟩).mp h)) (not_colReset_succ n hn) (iblk m c 0 ⟨n + 1, hn⟩)
          (outsAt c n (Nat.lt_of_succ_lt hn)).1 (outsAt c n (Nat.lt_of_succ_lt hn)).2)

/-- The point before `t`. -/
abbrev prev (t : Fin cfg0.N) : Fin cfg0.N := ⟨t.val - 1, Nat.lt_of_le_of_lt (Nat.sub_le _ _) t.isLt⟩

theorem not_colReset_of_ne (t : Fin cfg0.N) (ht : t.val ≠ 0) : ¬colReset (grid0.coords t) :=
  fun h => ht ((colReset_iff t).mp h)

/-- `outsAt` at the first point. -/
theorem outsAt_first (c : Dev nD) (t : Fin cfg0.N) (h1 : t.val = 0) :
    outsAt m c t.val t.isLt =
      (rowFirst c (grid0.coords t) (tileRef t) (tileRef_whole t) (rowRef t) (rowRef_whole t) (colRef t) (colRef_whole t)
          ((rowReset_iff t).mpr (by rw [h1])) ((colReset_iff t).mpr h1) (iblk m c 0 t),
       colFirst c (grid0.coords t) (tileRef t) (tileRef_whole t) (rowRef t) (rowRef_whole t) (colRef t) (colRef_whole t)
          ((rowReset_iff t).mpr (by rw [h1])) ((colReset_iff t).mpr h1) (iblk m c 0 t)) := by
  obtain ⟨n, hn⟩ := t
  cases n with
  | zero => exact rfl
  | succ n => exact absurd h1 (Nat.succ_ne_zero n)

/-- `outsAt` at the start of a later row of tiles. -/
theorem outsAt_rowStart (c : Dev nD) (t : Fin cfg0.N) (h0 : t.val % 8 = 0) (h1 : t.val ≠ 0) :
    outsAt m c t.val t.isLt =
      (rowRowStart c (grid0.coords t) (tileRef t) (tileRef_whole t) (rowRef t) (rowRef_whole t) (colRef t) (colRef_whole t)
          ((rowReset_iff t).mpr h0) (not_colReset_of_ne t h1) (iblk m c 0 t) (outsAt m c (prev t).val (prev t).isLt).2,
       colRowStart c (grid0.coords t) (tileRef t) (tileRef_whole t) (rowRef t) (rowRef_whole t) (colRef t) (colRef_whole t)
          ((rowReset_iff t).mpr h0) (not_colReset_of_ne t h1) (iblk m c 0 t) (outsAt m c (prev t).val (prev t).isLt).2) := by
  obtain ⟨n, hn⟩ := t
  cases n with
  | zero => exact absurd rfl h1
  | succ n => exact (dif_pos h0).trans rfl

/-- `outsAt` at any other point. -/
theorem outsAt_inner (c : Dev nD) (t : Fin cfg0.N) (h0 : ¬t.val % 8 = 0) :
    outsAt m c t.val t.isLt =
      (rowInner c (grid0.coords t) (tileRef t) (tileRef_whole t) (rowRef t) (rowRef_whole t) (colRef t) (colRef_whole t)
          (fun h => h0 ((rowReset_iff t).mp h)) (not_colReset_of_ne t (fun h => h0 (by rw [h]))) (iblk m c 0 t)
          (outsAt m c (prev t).val (prev t).isLt).1 (outsAt m c (prev t).val (prev t).isLt).2,
       colInner c (grid0.coords t) (tileRef t) (tileRef_whole t) (rowRef t) (rowRef_whole t) (colRef t) (colRef_whole t)
          (fun h => h0 ((rowReset_iff t).mp h)) (not_colReset_of_ne t (fun h => h0 (by rw [h]))) (iblk m c 0 t)
          (outsAt m c (prev t).val (prev t).isLt).1 (outsAt m c (prev t).val (prev t).isLt).2) := by
  obtain ⟨n, hn⟩ := t
  cases n with
  | zero => exact absurd (Nat.zero_mod _) h0
  | succ n => exact (dif_neg h0).trans rfl

/-! ## The pipeline's proof data -/

/-- The proof data on core `c`: the arrays as the region finds them; after the body at point `t` the tile's buffer
    at its tile and the two accumulators at `outsAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt m c t.val t.isLt).1
    | ⟨2, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_tile (c : Dev nD) (t : Fin cfg0.N) : (dats m 0 c).after 0 t = iblk m c 0 t := by dsimp only [dats]
theorem after_row (c : Dev nD) (t : Fin cfg0.N) : (dats m 0 c).after 1 t = (outsAt m c t.val t.isLt).1 := by dsimp only [dats]
theorem after_col (c : Dev nD) (t : Fin cfg0.N) : (dats m 0 c).after 2 t = (outsAt m c t.val t.isLt).2 := by dsimp only [dats]

/-- The tile's buffer holds the tile at every point. -/
theorem before_tile (c : Dev nD) (t : Fin cfg0.N) (d) : (dats m 0 c).before 0 t d = iblk m c 0 t :=
  before0_0_of m (dats m 0 c) (A_eq m c 0) (after_tile m c) t d

/-- Within a row of tiles the first buffer holds what the point before left: it is written back only after the
    row's last tile. -/
theorem before_row_kept (c : Dev nD) (t : Fin cfg0.N) (h0 : ¬t.val % 8 = 0) (d) :
    (dats m 0 c).before 1 t d = (outsAt m c (prev t).val (prev t).isLt).1 := by
  have hN : t.val < 64 := lt_of_lt_of_eq t.isLt N_eq
  rw [Dat.before_out_kept _ 1 rfl t (fun h => h0 (by rw [h]))
    (Bool.eq_false_iff.mpr fun h => by have := (flush0_1 _).mp h; dsimp only at this; omega)
    (fun _ => rfl) (fun _ _ => rfl)]
  dsimp only [dats]

/-- After the first point the second buffer holds what the point before left: it is written back only at the end. -/
theorem before_col_kept (c : Dev nD) (t : Fin cfg0.N) (h1 : t.val ≠ 0) (d) :
    (dats m 0 c).before 2 t d = (outsAt m c (prev t).val (prev t).isLt).2 := by
  have hN : t.val < 64 := lt_of_lt_of_eq t.isLt N_eq
  rw [Dat.before_out_kept _ 2 rfl t h1
    (Bool.eq_false_iff.mpr fun h => by have := (flush0_2 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (tileRef t) fullShare ((dats m 0 c).before 0 t d))
    ∗ (∃ d, owns (c : Thread nD τ) (rowRef t) fullShare ((dats m 0 c).before 1 t d))
    ∗ (∃ d, owns (c : Thread nD τ) (colRef t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (tileRef t) fullShare ((dats m 0 c).after 0 t)
    ∗ owns (c : Thread nD τ) (rowRef t) fullShare ((dats m 0 c).after 1 t)
    ∗ owns (c : Thread nD τ) (colRef t) fullShare ((dats m 0 c).after 2 t))

set_option maxHeartbeats 1600000 in
/-- The body at any point: the closed forms say which case the point is in; a buffer the case reads before storing
    it whole holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_tile]
  rw [show (dats m 0 c).Φ t.succ = (dats m 0 c).Φ t.castSucc from rfl,
    show (dats m 0 c).owesAt () t.succ = (dats m 0 c).owesAt () t.castSucc from rfl,
    after_tile, after_row, after_col]
  by_cases h0 : t.val % 8 = 0
  · by_cases h1 : t.val = 0
    · rw [outsAt_first m c t h1]
      dsimp only
      unfold rowFirst colFirst
      iintro ⟨HΦ, Ho, ⟨%d0, H0⟩, ⟨%d1, H1⟩, ⟨%d2, H2⟩⟩
      iapply ((runFirst c (grid0.coords t) _ _ _ _ _ _ ((rowReset_iff t).mpr h0) ((colReset_iff t).mpr h1) (iblk m c 0 t)).2 Set.univ _)
      isplitl [H0]; · iexact H0
      isplitl [H1]; · iexists _; iexact H1
      isplitl [H2]; · iexists _; iexact H2
      iintro ⟨H0, ⟨%e1, H1⟩, ⟨%e2, H2⟩⟩
      isplitl [HΦ]; · iexact HΦ
      isplitl [Ho]; · iexact Ho
      isplitl [H0]; · iexact H0
      isplitl [H1]
      · unfold owns; iexists _; isplitr
        swap; · iexact H1
        ipureintro; exact View.read_writes_of_cover _ _ _ _ _ (rowFirst_cover c _ _ _ _ _ _ _ _ _ _)
      · unfold owns; iexists _; isplitr
        swap; · iexact H2
        ipureintro; exact View.read_writes_of_cover _ _ _ _ _ (colFirst_cover c _ _ _ _ _ _ _ _ _ _)
    · rw [outsAt_rowStart m c t h0 h1]
      dsimp only
      simp only [before_col_kept m c t h1]
      unfold rowRowStart colRowStart
      iintro ⟨HΦ, Ho, ⟨%d0, H0⟩, ⟨%d1, H1⟩, ⟨%d2, H2⟩⟩
      iapply ((runRowStart c (grid0.coords t) _ _ _ _ _ _ ((rowReset_iff t).mpr h0) (not_colReset_of_ne t h1) (iblk m c 0 t) _).2 Set.univ _)
      isplitl [H0]; · iexact H0
      isplitl [H1]; · iexists _; iexact H1
      isplitl [H2]; · iexact H2
      iintro ⟨H0, ⟨%e1, H1⟩, H2⟩
      isplitl [HΦ]; · iexact HΦ
      isplitl [Ho]; · iexact Ho
      isplitl [H0]; · iexact H0
      isplitl [H1]
      · unfold owns; iexists _; isplitr
        swap; · iexact H1
        ipureintro; exact View.read_writes_of_cover _ _ _ _ _ (rowRowStart_cover c _ _ _ _ _ _ _ _ _ _ _)
      · unfold owns; iexists _; isplitr
        swap; · iexact H2
        ipureintro; rfl
  · have h1 : t.val ≠ 0 := fun h => h0 (by rw [h])
    rw [outsAt_inner m c t h0]
    dsimp only
    simp only [before_row_kept m c t h0, before_col_kept m c t h1]
    unfold rowInner colInner
    iintro ⟨HΦ, Ho, ⟨%d0, H0⟩, ⟨%d1, H1⟩, ⟨%d2, H2⟩⟩
    iapply ((runInner c (grid0.coords t) _ _ _ _ _ _ (fun h => h0 ((rowReset_iff t).mp h)) (not_colReset_of_ne t h1) (iblk m c 0 t) _ _).2 Set.univ _)
    isplitl [H0]; · iexact H0
    isplitl [H1]; · iexact H1
    isplitl [H2]; · iexact H2
    iintro ⟨H0, ⟨%e1, H1⟩, H2⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (rowInner_cover c _ _ _ _ _ _ _ _ _ _ _ _)
    · unfold owns; iexists _; isplitr
      swap; · iexact H2
      ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every final state has each array of the pipeline at what the
    library computes from the proof data, and every other unscoped buffer at what the host operations after the
    region make of those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Body

end
-- ==== Proof.KIBody.lean ====
/-
  The kernel body at one grid point, by cases of the two resets, and what it leaves in the two accumulators.

  The grid is 8 x 8 points in row-major order, point t = 8 * bi + bj. The body reads the tile (bi, bj) of the matrix,
  forms the tile of exponentials, and adds the tile's row sums into the column block bi of the first result (a 1024 x 1
  buffer kept while bj runs, zeroed when bj = 0) and the tile's column sums into the slice bj of the second result
  (a 1 x 8192 buffer kept over the whole grid, zeroed at the first point). Three cases meet the grid: the first point
  (both buffers zeroed), the start of a later row of tiles (only the first buffer zeroed), every other point (neither).
-/
import proofs.«166390_j58007828300256_1_alg».proof.Proof.Gen.KernelIdeal.Skeleton
import proofs.«166390_j58007828300256_1_alg».proof.Proof.Gen.KernelIdeal.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two resets, decided over the grid -/

/-- The first buffer is zeroed: the point's column coordinate is 0. -/
abbrev rowReset (i : grid0.Coords) : Prop :=
  (Scalar.cmpi .ne (Scalar.extui (Scalar.cmpi .eq (BitVec.ofNat 32 (i 1).val) 0#32)) 0#32) = 1#1

theorem rowReset_iff : ∀ t : Fin cfg0.N, rowReset (grid0.coords t) ↔ t.val % 8 = 0 :=
  (by decide +kernel : ∀ t : Fin grid0.N, rowReset (grid0.coords t) ↔ t.val % 8 = 0)

/-- The second buffer is zeroed: both coordinates are 0. -/
abbrev colReset (i : grid0.Coords) : Prop :=
  (Scalar.cmpi .ne (Scalar.extui (Scalar.andi (Scalar.cmpi .eq (BitVec.ofNat 32 (i 0).val) 0#32)
    (Scalar.cmpi .eq (BitVec.ofNat 32 (i 1).val) 0#32))) 0#32) = 1#1

theorem colReset_iff : ∀ t : Fin cfg0.N, colReset (grid0.coords t) ↔ t.val = 0 :=
  (by decide +kernel : ∀ t : Fin grid0.N, colReset (grid0.coords t) ↔ t.val = 0)

/-- The staging memrefs the pipeline hands the body at point `t`. -/
abbrev tileRef (t : Fin cfg0.N) : Memref sig .tc .vmem S1024x1024 .f32 := win0_0.stage (cfg0.slots t 0)
abbrev tileRef_whole (t : Fin cfg0.N) : (tileRef t).IsWhole := hstage0_0 ((cfg0.slots t 0).cast nbuf0_0)
abbrev rowRef (t : Fin cfg0.N) : Memref sig .tc .vmem S1024x1 .f32 := win0_1.stage (cfg0.slots t 1)
abbrev rowRef_whole (t : Fin cfg0.N) : (rowRef t).IsWhole := hstage0_1 ((cfg0.slots t 1).cast nbuf0_1)
abbrev colRef (t : Fin cfg0.N) : Memref sig .tc .vmem S1x8192 .f32 := win0_2.stage (cfg0.slots t 2)
abbrev colRef_whole (t : Fin cfg0.N) : (colRef t).IsWhole := hstage0_2 ((cfg0.slots t 2).cast nbuf0_2)

abbrev RowPieces (F : FTy → Type) := List (View.Piece (Elt F) S1024x1 .f32)
abbrev ColPieces (F : FTy → Type) := List (View.Piece (Elt F) S1x8192 .f32)

/-! ## The body's run in each case -/

set_option maxHeartbeats 1000000 in
/-- THE FIRST POINT. Both buffers hold anything; the body zeroes both and adds the tile's sums. The stores it leaves
    in each buffer are the witness the run finds. -/
noncomputable def runFirst (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : rowReset i) (hc : colReset i) (x : Vec F S1024x1024 .f32) :
    { L : RowPieces F × ColPieces F //
      ∀ (E : Set ℕ) (K : PUnit → sProp 𝕄),
        iprop(owns (c : Thread nD τ) a2 fullShare x ∗ (∃ d, owns (c : Thread nD τ) a3 fullShare d) ∗ (∃ d, owns (c : Thread nD τ) a4 fullShare d)
            ∗ (iprop(owns (c : Thread nD τ) a2 fullShare x
                ∗ (∃ f, a3.view.loc (c : Thread nD τ) ↦[a3.view.set]{fullShare} a3.view.writes (Elt F) f L.1)
                ∗ (∃ f, a4.view.loc (c : Thread nD τ) ↦[a4.view.set]{fullShare} a4.view.writes (Elt F) f L.2)) -∗ K ⟨⟩))
          ⊢ wp frame (wpE (defs₀ (F := F)) Variants.none c none) E (cc0__npair_kernel i a2 h2 a3 h3 a4 h4) K } := by
  refine ⟨(?_, ?_), fun E K => ?run⟩
  case run =>
    simp only [cc0__npair_kernel_eq_skeleton]; unfold cc0__npair_kernel_skel
    simp only [k0_part1_eq_skeleton]
    unfold owns
    iintro ⟨⟨%f0, %hf0, H0⟩, ⟨%d1, %f1, -, H1⟩, ⟨%d2, %f2, -, H2⟩, Hk⟩
    obtain rfl := h2.eq_unread hf0
    sl_exec (disch := first | exact hr | exact hc)
    sl_step
    iapply Hk
    isplitl [H0]
    · iexists _; isplitr; · ipureintro; exact h2.read_unread _
      iexact H0
    isplitl [H1]
    · iexists _; iexact H1
    iexists _; iexact H2

set_option maxHeartbeats 1000000 in
/-- THE START OF A LATER ROW OF TILES. The first buffer holds anything and is zeroed; the second holds the running
    column sums `s`, of which the body updates one slice. -/
noncomputable def runRowStart (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : rowReset i) (hc : ¬colReset i) (x : Vec F S1024x1024 .f32) (s : Vec F S1x8192 .f32) :
    { L : RowPieces F × ColPieces F //
      ∀ (E : Set ℕ) (K : PUnit → sProp 𝕄),
        iprop(owns (c : Thread nD τ) a2 fullShare x ∗ (∃ d, owns (c : Thread nD τ) a3 fullShare d) ∗ owns (c : Thread nD τ) a4 fullShare s
            ∗ (iprop(owns (c : Thread nD τ) a2 fullShare x
                ∗ (∃ f, a3.view.loc (c : Thread nD τ) ↦[a3.view.set]{fullShare} a3.view.writes (Elt F) f L.1)
                ∗ a4.view.loc (c : Thread nD τ) ↦[a4.view.set]{fullShare} a4.view.writes (Elt F) (h4.unread s) L.2) -∗ K ⟨⟩))
          ⊢ wp frame (wpE (defs₀ (F := F)) Variants.none c none) E (cc0__npair_kernel i a2 h2 a3 h3 a4 h4) K } := by
  refine ⟨(?_, ?_), fun E K => ?run⟩
  case run =>
    simp only [cc0__npair_kernel_eq_skeleton]; unfold cc0__npair_kernel_skel
    simp only [k0_part1_eq_skeleton]
    unfold owns
    iintro ⟨⟨%f0, %hf0, H0⟩, ⟨%d1, %f1, -, H1⟩, ⟨%f2, %hf2, H2⟩, Hk⟩
    obtain rfl := h2.eq_unread hf0; obtain rfl := h4.eq_unread hf2
    sl_exec (disch := first | exact hr | exact hc)
    sl_step
    iapply Hk
    isplitl [H0]
    · iexists _; isplitr; · ipureintro; exact h2.read_unread _
      iexact H0
    isplitl [H1]
    · iexists _; iexact H1
    iexact H2

set_option maxHeartbeats 1000000 in
/-- EVERY OTHER POINT. The first buffer holds the running row sums `r`, the second the running column sums `s`. -/
noncomputable def runInner (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : ¬rowReset i) (hc : ¬colReset i) (x : Vec F S1024x1024 .f32) (r : Vec F S1024x1 .f32) (s : Vec F S1x8192 .f32) :
    { L : RowPieces F × ColPieces F //
      ∀ (E : Set ℕ) (K : PUnit → sProp 𝕄),
        iprop(owns (c : Thread nD τ) a2 fullShare x ∗ owns (c : Thread nD τ) a3 fullShare r ∗ owns (c : Thread nD τ) a4 fullShare s
            ∗ (iprop(owns (c : Thread nD τ) a2 fullShare x
                ∗ (∃ f, a3.view.loc (c : Thread nD τ) ↦[a3.view.set]{fullShare} a3.view.writes (Elt F) f L.1)
                ∗ a4.view.loc (c : Thread nD τ) ↦[a4.view.set]{fullShare} a4.view.writes (Elt F) (h4.unread s) L.2) -∗ K ⟨⟩))
          ⊢ wp frame (wpE (defs₀ (F := F)) Variants.none c none) E (cc0__npair_kernel i a2 h2 a3 h3 a4 h4) K } := by
  refine ⟨(?_, ?_), fun E K => ?run⟩
  case run =>
    simp only [cc0__npair_kernel_eq_skeleton]; unfold cc0__npair_kernel_skel
    simp only [k0_part1_eq_skeleton]
    unfold owns
    iintro ⟨⟨%f0, %hf0, H0⟩, ⟨%f1, %hf1, H1⟩, ⟨%f2, %hf2, H2⟩, Hk⟩
    obtain rfl := h2.eq_unread hf0; obtain rfl := h3.eq_unread hf1; obtain rfl := h4.eq_unread hf2
    sl_exec (disch := first | exact hr | exact hc)
    sl_step
    iapply Hk
    isplitl [H0]
    · iexists _; isplitr; · ipureintro; exact h2.read_unread _
      iexact H0
    isplitl [H1]
    · iexists _; iexact H1
    iexact H2

/-! ## What each case leaves in the two buffers -/

/-- The first buffer after the first point: the run's stores read back (they cover it). -/
def rowFirst (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : rowReset i) (hc : colReset i) (x : Vec F S1024x1024 .f32) : Vec F S1024x1 .f32 :=
  a3.view.read (Elt F) (a3.view.writes (Elt F) a3.view.junk (runFirst c i a2 h2 a3 h3 a4 h4 hr hc x).1.1)

/-- The second buffer after the first point: the run's stores read back (the zero fill covers it). -/
def colFirst (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : rowReset i) (hc : colReset i) (x : Vec F S1024x1024 .f32) : Vec F S1x8192 .f32 :=
  a4.view.read (Elt F) (a4.view.writes (Elt F) a4.view.junk (runFirst c i a2 h2 a3 h3 a4 h4 hr hc x).1.2)

/-- The first buffer after the start of a later row of tiles. -/
def rowRowStart (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : rowReset i) (hc : ¬colReset i) (x : Vec F S1024x1024 .f32) (s : Vec F S1x8192 .f32) : Vec F S1024x1 .f32 :=
  a3.view.read (Elt F) (a3.view.writes (Elt F) a3.view.junk (runRowStart c i a2 h2 a3 h3 a4 h4 hr hc x s).1.1)

/-- The second buffer after the start of a later row of tiles: the running sums `s` with one slice stored over. -/
def colRowStart (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : rowReset i) (hc : ¬colReset i) (x : Vec F S1024x1024 .f32) (s : Vec F S1x8192 .f32) : Vec F S1x8192 .f32 :=
  a4.view.read (Elt F) (a4.view.writes (Elt F) (h4.unread s) (runRowStart c i a2 h2 a3 h3 a4 h4 hr hc x s).1.2)

/-- The first buffer after any other point. -/
def rowInner (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : ¬rowReset i) (hc : ¬colReset i) (x : Vec F S1024x1024 .f32) (r : Vec F S1024x1 .f32) (s : Vec F S1x8192 .f32) :
    Vec F S1024x1 .f32 :=
  a3.view.read (Elt F) (a3.view.writes (Elt F) a3.view.junk (runInner c i a2 h2 a3 h3 a4 h4 hr hc x r s).1.1)

/-- The second buffer after any other point: the running sums `s` with one slice stored over. -/
def colInner (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : ¬rowReset i) (hc : ¬colReset i) (x : Vec F S1024x1024 .f32) (r : Vec F S1024x1 .f32) (s : Vec F S1x8192 .f32) :
    Vec F S1x8192 .f32 :=
  a4.view.read (Elt F) (a4.view.writes (Elt F) (h4.unread s) (runInner c i a2 h2 a3 h3 a4 h4 hr hc x r s).1.2)

/-- In every case the first buffer is stored whole, -/
theorem rowFirst_cover (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : rowReset i) (hc : colReset i) (x : Vec F S1024x1024 .f32) (y : S1024x1.Idx) :
    ∃ pc ∈ (runFirst c i a2 h2 a3 h3 a4 h4 hr hc x).1.1, y ∈ pc.1.set :=
  View.cover_of_wholeMem _ (by unfold runFirst; dsimp only; sl_whole_mem) y

theorem rowRowStart_cover (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : rowReset i) (hc : ¬colReset i) (x : Vec F S1024x1024 .f32) (s : Vec F S1x8192 .f32) (y : S1024x1.Idx) :
    ∃ pc ∈ (runRowStart c i a2 h2 a3 h3 a4 h4 hr hc x s).1.1, y ∈ pc.1.set :=
  View.cover_of_wholeMem _ (by unfold runRowStart; dsimp only; sl_whole_mem) y

theorem rowInner_cover (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : ¬rowReset i) (hc : ¬colReset i) (x : Vec F S1024x1024 .f32) (r : Vec F S1024x1 .f32) (s : Vec F S1x8192 .f32)
    (y : S1024x1.Idx) :
    ∃ pc ∈ (runInner c i a2 h2 a3 h3 a4 h4 hr hc x r s).1.1, y ∈ pc.1.set :=
  View.cover_of_wholeMem _ (by unfold runInner; dsimp only; sl_whole_mem) y

/-- and at the first point the second buffer too (by its zero fill). -/
theorem colFirst_cover (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : rowReset i) (hc : colReset i) (x : Vec F S1024x1024 .f32) (y : S1x8192.Idx) :
    ∃ pc ∈ (runFirst c i a2 h2 a3 h3 a4 h4 hr hc x).1.2, y ∈ pc.1.set :=
  View.cover_of_wholeMem _ (by unfold runFirst; dsimp only; sl_whole_mem) y

/-! ## The accumulation over the grid -/

theorem N_eq : cfg0.N = 64 := N_0

theorem not_colReset_succ (n : ℕ) (hn : n + 1 < cfg0.N) : ¬colReset (grid0.coords ⟨n + 1, hn⟩) := fun h => by
  have := (colReset_iff ⟨n + 1, hn⟩).mp h; exact Nat.succ_ne_zero n this

/-- What the two buffers hold after the body at point `n`: at the first point what the first case leaves; at the
    start of a later row of tiles the first buffer afresh and the second over what the point before left; at any
    other point both over what the point before left. -/
def outsAt (c : Dev nD) : (n : ℕ) → n < cfg0.N → Vec F S1024x1 .f32 × Vec F S1x8192 .f32
  | 0, hn =>
    (rowFirst c (grid0.coords ⟨0, hn⟩) (tileRef ⟨0, hn⟩) (tileRef_whole ⟨0, hn⟩) (rowRef ⟨0, hn⟩) (rowRef_whole ⟨0, hn⟩) (colRef ⟨0, hn⟩) (colRef_whole ⟨0, hn⟩)
        ((rowReset_iff ⟨0, hn⟩).mpr (Nat.zero_mod _)) ((colReset_iff ⟨0, hn⟩).mpr rfl) (iblk m c 0 ⟨0, hn⟩),
     colFirst c (grid0.coords ⟨0, hn⟩) (tileRef ⟨0, hn⟩) (tileRef_whole ⟨0, hn⟩) (rowRef ⟨0, hn⟩) (rowRef_whole ⟨0, hn⟩) (colRef ⟨0, hn⟩) (colRef_whole ⟨0, hn⟩)
        ((rowReset_iff ⟨0, hn⟩).mpr (Nat.zero_mod _)) ((colReset_iff ⟨0, hn⟩).mpr rfl) (iblk m c 0 ⟨0, hn⟩))
  | n + 1, hn =>
    if h0 : (n + 1) % 8 = 0 then
      (rowRowStart c (grid0.coords ⟨n + 1, hn⟩) (tileRef ⟨n + 1, hn⟩) (tileRef_whole ⟨n + 1, hn⟩) (rowRef ⟨n + 1, hn⟩) (rowRef_whole ⟨n + 1, hn⟩) (colRef ⟨n + 1, hn⟩) (colRef_whole ⟨n + 1, hn⟩)
          ((rowReset_iff ⟨n + 1, hn⟩).mpr h0) (not_colReset_succ n hn) (iblk m c 0 ⟨n + 1, hn⟩) (outsAt c n (Nat.lt_of_succ_lt hn)).2,
       colRowStart c (grid0.coords ⟨n + 1, hn⟩) (tileRef ⟨n + 1, hn⟩) (tileRef_whole ⟨n + 1, hn⟩) (rowRef ⟨n + 1, hn⟩) (rowRef_whole ⟨n + 1, hn⟩) (colRef ⟨n + 1, hn⟩) (colRef_whole ⟨n + 1, hn⟩)
          ((rowReset_iff ⟨n + 1, hn⟩).mpr h0) (not_colReset_succ n hn) (iblk m c 0 ⟨n + 1, hn⟩) (outsAt c n (Nat.lt_of_succ_lt hn)).2)
    else
      (rowInner c (grid0.coords ⟨n + 1, hn⟩) (tileRef ⟨n + 1, hn⟩) (tileRef_whole ⟨n + 1, hn⟩) (rowRef ⟨n + 1, hn⟩) (rowRef_whole ⟨n + 1, hn⟩) (colRef ⟨n + 1, hn⟩) (colRef_whole ⟨n + 1, hn⟩)
          (fun h => h0 ((rowReset_iff ⟨n + 1, hn⟩).mp h)) (not_colReset_succ n hn) (iblk m c 0 ⟨n + 1, hn⟩)
          (outsAt c n (Nat.lt_of_succ_lt hn)).1 (outsAt c n (Nat.lt_of_succ_lt hn)).2,
       colInner c (grid0.coords ⟨n + 1, hn⟩) (tileRef ⟨n + 1, hn⟩) (tileRef_whole ⟨n + 1, hn⟩) (rowRef ⟨n + 1, hn⟩) (rowRef_whole ⟨n + 1, hn⟩) (colRef ⟨n + 1, hn⟩) (colRef_whole ⟨n + 1, hn⟩)
          (fun h => h0 ((rowReset_iff ⟨n + 1, hn⟩).mp h)) (not_colReset_succ n hn) (iblk m c 0 ⟨n + 1, hn⟩)
          (outsAt c n (Nat.lt_of_succ_lt hn)).1 (outsAt c n (Nat.lt_of_succ_lt hn)).2)

/-- The point before `t`. -/
abbrev prev (t : Fin cfg0.N) : Fin cfg0.N := ⟨t.val - 1, Nat.lt_of_le_of_lt (Nat.sub_le _ _) t.isLt⟩

theorem not_colReset_of_ne (t : Fin cfg0.N) (ht : t.val ≠ 0) : ¬colReset (grid0.coords t) :=
  fun h => ht ((colReset_iff t).mp h)

/-- `outsAt` at the first point. -/
theorem outsAt_first (c : Dev nD) (t : Fin cfg0.N) (h1 : t.val = 0) :
    outsAt m c t.val t.isLt =
      (rowFirst c (grid0.coords t) (tileRef t) (tileRef_whole t) (rowRef t) (rowRef_whole t) (colRef t) (colRef_whole t)
          ((rowReset_iff t).mpr (by rw [h1])) ((colReset_iff t).mpr h1) (iblk m c 0 t),
       colFirst c (grid0.coords t) (tileRef t) (tileRef_whole t) (rowRef t) (rowRef_whole t) (colRef t) (colRef_whole t)
          ((rowReset_iff t).mpr (by rw [h1])) ((colReset_iff t).mpr h1) (iblk m c 0 t)) := by
  obtain ⟨n, hn⟩ := t
  cases n with
  | zero => exact rfl
  | succ n => exact absurd h1 (Nat.succ_ne_zero n)

/-- `outsAt` at the start of a later row of tiles. -/
theorem outsAt_rowStart (c : Dev nD) (t : Fin cfg0.N) (h0 : t.val % 8 = 0) (h1 : t.val ≠ 0) :
    outsAt m c t.val t.isLt =
      (rowRowStart c (grid0.coords t) (tileRef t) (tileRef_whole t) (rowRef t) (rowRef_whole t) (colRef t) (colRef_whole t)
          ((rowReset_iff t).mpr h0) (not_colReset_of_ne t h1) (iblk m c 0 t) (outsAt m c (prev t).val (prev t).isLt).2,
       colRowStart c (grid0.coords t) (tileRef t) (tileRef_whole t) (rowRef t) (rowRef_whole t) (colRef t) (colRef_whole t)
          ((rowReset_iff t).mpr h0) (not_colReset_of_ne t h1) (iblk m c 0 t) (outsAt m c (prev t).val (prev t).isLt).2) := by
  obtain ⟨n, hn⟩ := t
  cases n with
  | zero => exact absurd rfl h1
  | succ n => exact (dif_pos h0).trans rfl

/-- `outsAt` at any other point. -/
theorem outsAt_inner (c : Dev nD) (t : Fin cfg0.N) (h0 : ¬t.val % 8 = 0) :
    outsAt m c t.val t.isLt =
      (rowInner c (grid0.coords t) (tileRef t) (tileRef_whole t) (rowRef t) (rowRef_whole t) (colRef t) (colRef_whole t)
          (fun h => h0 ((rowReset_iff t).mp h)) (not_colReset_of_ne t (fun h => h0 (by rw [h]))) (iblk m c 0 t)
          (outsAt m c (prev t).val (prev t).isLt).1 (outsAt m c (prev t).val (prev t).isLt).2,
       colInner c (grid0.coords t) (tileRef t) (tileRef_whole t) (rowRef t) (rowRef_whole t) (colRef t) (colRef_whole t)
          (fun h => h0 ((rowReset_iff t).mp h)) (not_colReset_of_ne t (fun h => h0 (by rw [h]))) (iblk m c 0 t)
          (outsAt m c (prev t).val (prev t).isLt).1 (outsAt m c (prev t).val (prev t).isLt).2) := by
  obtain ⟨n, hn⟩ := t
  cases n with
  | zero => exact absurd (Nat.zero_mod _) h0
  | succ n => exact (dif_neg h0).trans rfl

/-! ## The pipeline's proof data -/

/-- The proof data on core `c`: the arrays as the region finds them; after the body at point `t` the tile's buffer
    at its tile and the two accumulators at `outsAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt m c t.val t.isLt).1
    | ⟨2, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_tile (c : Dev nD) (t : Fin cfg0.N) : (dats m 0 c).after 0 t = iblk m c 0 t := by dsimp only [dats]
theorem after_row (c : Dev nD) (t : Fin cfg0.N) : (dats m 0 c).after 1 t = (outsAt m c t.val t.isLt).1 := by dsimp only [dats]
theorem after_col (c : Dev nD) (t : Fin cfg0.N) : (dats m 0 c).after 2 t = (outsAt m c t.val t.isLt).2 := by dsimp only [dats]

/-- The tile's buffer holds the tile at every point. -/
theorem before_tile (c : Dev nD) (t : Fin cfg0.N) (d) : (dats m 0 c).before 0 t d = iblk m c 0 t :=
  before0_0_of m (dats m 0 c) (A_eq m c 0) (after_tile m c) t d

/-- Within a row of tiles the first buffer holds what the point before left: it is written back only after the
    row's last tile. -/
theorem before_row_kept (c : Dev nD) (t : Fin cfg0.N) (h0 : ¬t.val % 8 = 0) (d) :
    (dats m 0 c).before 1 t d = (outsAt m c (prev t).val (prev t).isLt).1 := by
  have hN : t.val < 64 := lt_of_lt_of_eq t.isLt N_eq
  rw [Dat.before_out_kept _ 1 rfl t (fun h => h0 (by rw [h]))
    (Bool.eq_false_iff.mpr fun h => by have := (flush0_1 _).mp h; dsimp only at this; omega)
    (fun _ => rfl) (fun _ _ => rfl)]
  dsimp only [dats]

/-- After the first point the second buffer holds what the point before left: it is written back only at the end. -/
theorem before_col_kept (c : Dev nD) (t : Fin cfg0.N) (h1 : t.val ≠ 0) (d) :
    (dats m 0 c).before 2 t d = (outsAt m c (prev t).val (prev t).isLt).2 := by
  have hN : t.val < 64 := lt_of_lt_of_eq t.isLt N_eq
  rw [Dat.before_out_kept _ 2 rfl t h1
    (Bool.eq_false_iff.mpr fun h => by have := (flush0_2 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (tileRef t) fullShare ((dats m 0 c).before 0 t d))
    ∗ (∃ d, owns (c : Thread nD τ) (rowRef t) fullShare ((dats m 0 c).before 1 t d))
    ∗ (∃ d, owns (c : Thread nD τ) (colRef t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (tileRef t) fullShare ((dats m 0 c).after 0 t)
    ∗ owns (c : Thread nD τ) (rowRef t) fullShare ((dats m 0 c).after 1 t)
    ∗ owns (c : Thread nD τ) (colRef t) fullShare ((dats m 0 c).after 2 t))

set_option maxHeartbeats 1600000 in
/-- The body at any point: the closed forms say which case the point is in; a buffer the case reads before storing
    it whole holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_tile]
  rw [show (dats m 0 c).Φ t.succ = (dats m 0 c).Φ t.castSucc from rfl,
    show (dats m 0 c).owesAt () t.succ = (dats m 0 c).owesAt () t.castSucc from rfl,
    after_tile, after_row, after_col]
  by_cases h0 : t.val % 8 = 0
  · by_cases h1 : t.val = 0
    · rw [outsAt_first m c t h1]
      dsimp only
      unfold rowFirst colFirst
      iintro ⟨HΦ, Ho, ⟨%d0, H0⟩, ⟨%d1, H1⟩, ⟨%d2, H2⟩⟩
      iapply ((runFirst c (grid0.coords t) _ _ _ _ _ _ ((rowReset_iff t).mpr h0) ((colReset_iff t).mpr h1) (iblk m c 0 t)).2 Set.univ _)
      isplitl [H0]; · iexact H0
      isplitl [H1]; · iexists _; iexact H1
      isplitl [H2]; · iexists _; iexact H2
      iintro ⟨H0, ⟨%e1, H1⟩, ⟨%e2, H2⟩⟩
      isplitl [HΦ]; · iexact HΦ
      isplitl [Ho]; · iexact Ho
      isplitl [H0]; · iexact H0
      isplitl [H1]
      · unfold owns; iexists _; isplitr
        swap; · iexact H1
        ipureintro; exact View.read_writes_of_cover _ _ _ _ _ (rowFirst_cover c _ _ _ _ _ _ _ _ _ _)
      · unfold owns; iexists _; isplitr
        swap; · iexact H2
        ipureintro; exact View.read_writes_of_cover _ _ _ _ _ (colFirst_cover c _ _ _ _ _ _ _ _ _ _)
    · rw [outsAt_rowStart m c t h0 h1]
      dsimp only
      simp only [before_col_kept m c t h1]
      unfold rowRowStart colRowStart
      iintro ⟨HΦ, Ho, ⟨%d0, H0⟩, ⟨%d1, H1⟩, ⟨%d2, H2⟩⟩
      iapply ((runRowStart c (grid0.coords t) _ _ _ _ _ _ ((rowReset_iff t).mpr h0) (not_colReset_of_ne t h1) (iblk m c 0 t) _).2 Set.univ _)
      isplitl [H0]; · iexact H0
      isplitl [H1]; · iexists _; iexact H1
      isplitl [H2]; · iexact H2
      iintro ⟨H0, ⟨%e1, H1⟩, H2⟩
      isplitl [HΦ]; · iexact HΦ
      isplitl [Ho]; · iexact Ho
      isplitl [H0]; · iexact H0
      isplitl [H1]
      · unfold owns; iexists _; isplitr
        swap; · iexact H1
        ipureintro; exact View.read_writes_of_cover _ _ _ _ _ (rowRowStart_cover c _ _ _ _ _ _ _ _ _ _ _)
      · unfold owns; iexists _; isplitr
        swap; · iexact H2
        ipureintro; rfl
  · have h1 : t.val ≠ 0 := fun h => h0 (by rw [h])
    rw [outsAt_inner m c t h0]
    dsimp only
    simp only [before_row_kept m c t h0, before_col_kept m c t h1]
    unfold rowInner colInner
    iintro ⟨HΦ, Ho, ⟨%d0, H0⟩, ⟨%d1, H1⟩, ⟨%d2, H2⟩⟩
    iapply ((runInner c (grid0.coords t) _ _ _ _ _ _ (fun h => h0 ((rowReset_iff t).mp h)) (not_colReset_of_ne t h1) (iblk m c 0 t) _ _).2 Set.univ _)
    isplitl [H0]; · iexact H0
    isplitl [H1]; · iexact H1
    isplitl [H2]; · iexact H2
    iintro ⟨H0, ⟨%e1, H1⟩, H2⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (rowInner_cover c _ _ _ _ _ _ _ _ _ _ _ _)
    · unfold owns; iexists _; isplitr
      swap; · iexact H2
      ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every final state has each array of the pipeline at what the
    library computes from the proof data, and every other unscoped buffer at what the host operations after the
    region make of those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Body

end
-- ==== Proof.Spec.lean ====
/-
  The specification, over a square matrix `d` of extended reals indexed by `Fin 8192 × Fin 8192`.

  Entry (i, k) of the matrix of exponentials is exp (1 - b i k), where b is `d` with its diagonal set to zero. Index i
  of the vector the loss is taken of is the sum of row i plus the sum of column i of that matrix. The closing steps
  (logarithm, the diagonal added, the square, the total, the division by 2 * 8192) are the same host operations in
  both programs and are carried as one function `tail` of that vector and of the diagonal.
-/
import Idealize.ShloMosaic.PureOps
import Idealize.ShloMosaic.PureOps.Ideal
import Idealize.ShloMosaic.Lib.ValueIdx

noncomputable section

namespace Cert.Spec

open Idealize.ShloMosaic

/-- The margin, 1.0, as the extended real its pattern denotes. -/
def one : EReal := Ideal.ofBits .f32 0x3F800000#32
/-- The value the diagonal is set to, 0.0, as the extended real its pattern denotes. -/
def zero : EReal := Ideal.ofBits .f32 0x00000000#32

/-- Entry (i, k) of the matrix of exponentials: exp (1 - d i k) off the diagonal, exp (1 - 0) on it. -/
def ent (d : Fin 8192 → Fin 8192 → EReal) (i k : Fin 8192) : EReal :=
  Ideal.exp (one - (if i.val = k.val then zero else d i k))

/-- The sum of row i. -/
def rowSum (d : Fin 8192 → Fin 8192 → EReal) (i : Fin 8192) : EReal := ∑ k : Fin 8192, ent d i k
/-- The sum of column i. -/
def colSum (d : Fin 8192 → Fin 8192 → EReal) (i : Fin 8192) : EReal := ∑ k : Fin 8192, ent d k i

abbrev Vec8192 : Shape := ⟨1, ![8192]⟩
abbrev Scal : Shape := ⟨0, ![]⟩
abbrev Mat8192 : Shape := ⟨2, ![8192, 8192]⟩

/-- A matrix array read as a function of its two coordinates. -/
def mat (x : FVec Ideal Mat8192 .f32) : Fin 8192 → Fin 8192 → EReal := fun i k => x (ValueIdx.ix2 i k)

/-- The vector the loss is taken of: row sum plus column sum, index by index. -/
def sums (x : FVec Ideal Mat8192 .f32) : FVec Ideal Vec8192 .f32 := fun j => rowSum (mat x) (j 0) + colSum (mat x) (j 0)

/-- The closing host operations, shared by both programs: sum over i of (log (s i) + diag i)², divided by 16384. -/
def tail (hr : Vec8192.ReducesTo [0] Scal) (h0 : 0 < Scal.numel) (s diag : FVec Ideal Vec8192 .f32) : FVec Ideal Scal .f32 :=
  Host.divf
    (Host.reduceAdd (mulf (addf (Host.log s) diag) (addf (Host.log s) diag)) (constant (F := Ideal) Scal .f32 0x00000000#32) hr h0)
    (constant (F := Ideal) Scal .f32 0x46800000#32)

end Cert.Spec

end
-- ==== Proof.KIPayload.lean ====
/-
  The kernel body's arithmetic, read at an index over the extended reals.

  At grid point (bi, bj) the body holds a 1024 x 1024 tile x of the input. Entry (p, q) of the tile sits at row
  bi * 1024 + p and column bj * 1024 + q of the whole matrix, so it lies on the diagonal exactly when those two numbers
  are equal; both are below 8192, so the equality of their 32-bit words is the equality of the numbers. The tile of
  exponentials has exp (1 - 0) there and exp (1 - x p q) elsewhere. Its sum along the second axis, kept as a column,
  is added to the row accumulator; its sum along the first axis, kept as a row, is added to a slice of the column
  accumulator; and both accumulators are cleared to zero.

  The first part reads the layout steps at an index given by coordinates: a column broadcast over many columns, a
  vector kept as a column, a sum along one axis as the finite sum over that axis's coordinates. The second part is
  the word arithmetic of the diagonal test. The third is the six values the body stores.
-/
import proofs.«166390_j58007828300256_1_alg».proof.Proof.Gen.KernelIdeal.Skeleton
import proofs.«166390_j58007828300256_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.KernelIdeal.Payload

open Cert.KernelIdeal Cert.KernelIdeal.Gen Idealize.ShloMosaic Idealize.ShloMosaic.ValueIdx

/-- An exponential at an index is the exponential of the element. -/
theorem exp_apply {s : Shape} {φ : FTy} (a : FVec Ideal s φ) (j : s.Idx) : exp a j = Ideal.exp (a j) := rfl
/-- An integer comparison at an index compares the elements. -/
theorem cmpi_apply {s : Shape} {w : Nat} (c : CmpIPredicate) (a b : IVec s w) (j : s.Idx) :
    cmpi c a b j = IntOp.cmpi c (a j) (b j) := rfl
/-- An integer sum at an index adds the elements. -/
theorem addi_apply {s : Shape} {w : Nat} (a b : IVec s w) (j : s.Idx) : addi a b j = IntOp.addi (a j) (b j) := rfl

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A block offset times 1024 plus a coordinate inside the block, on 32-bit words, is the word of the natural number. -/
theorem word_off (b r : Nat) :
    IntOp.addi (Scalar.muli (BitVec.ofNat 32 b) 1024#32) (BitVec.ofNat 32 r) = BitVec.ofNat 32 (b * 1024 + r) := by
  unfold IntOp.addi Scalar.muli IntOp.muli
  apply BitVec.eq_of_toNat_eq
  simp only [BitVec.toNat_add, BitVec.toNat_mul, BitVec.toNat_ofNat]
  omega

/-- A select on the equality of the words of two naturals below 2^32 is the `if` on their equality. -/
theorem select_cmpi_eq_ofNat {α : Type} (m n : Nat) (hm : m < 2 ^ 32) (hn : n < 2 ^ 32) (A B : α) :
    Scalar.select (IntOp.cmpi .eq (BitVec.ofNat 32 m) (BitVec.ofNat 32 n)) A B = if m = n then A else B := by
  by_cases h : m = n
  · subst h
    rw [if_pos rfl, StableHlo.Predicate.cmpi_eq_iff.mpr rfl, select_one]
  · have hne : ¬ IntOp.cmpi .eq (BitVec.ofNat 32 m) (BitVec.ofNat 32 n) = 1#1 := fun hc => h (by
      have e := congrArg BitVec.toNat (StableHlo.Predicate.cmpi_eq_iff.mp hc)
      simp only [BitVec.toNat_ofNat] at e
      rw [Nat.mod_eq_of_lt hm, Nat.mod_eq_of_lt hn] at e
      exact e)
    rw [if_neg h, eq_zero_of_ne_one hne, select_zero]

/-- the tile of exponentials: entry (p, q) of tile (bi, bj) -/
theorem pay2_apply (i : grid0.Coords) (x : Vec Ideal S1024x1024 .f32) (p q : Fin 1024) :
    k0_pay2 (F := Ideal) i x (ix2 p q)
      = Ideal.exp (Cert.Spec.one - (if (i 0).val * 1024 + p.val = (i 1).val * 1024 + q.val then Cert.Spec.zero else x (ix2 p q))) := by
  have h0 : (i 0).val < 8 := (i 0).isLt
  have h1 : (i 1).val < 8 := (i 1).isLt
  unfold k0_pay2
  dsimp only
  rw [exp_apply, subf_apply, select_apply, cmpi_apply, broadcast_apply, broadcast_apply,
    broadcastTo_a1_ab_apply, broadcastTo_1b_ab_apply, addi_apply, addi_apply, broadcast_apply, broadcast_apply,
    iota_single_apply, iota_single_apply]
  show Ideal.exp (Ideal.ofBits .f32 0x3F800000#32 -
      Scalar.select (IntOp.cmpi .eq
          (IntOp.addi (Scalar.muli (BitVec.ofNat 32 (i 0).val) 1024#32) (BitVec.ofNat 32 p.val))
          (IntOp.addi (Scalar.muli (BitVec.ofNat 32 (i 1).val) 1024#32) (BitVec.ofNat 32 q.val)))
        (Ideal.ofBits .f32 0x00000000#32) (x (ix2 p q))) = _
  rw [word_off, word_off, select_cmpi_eq_ofNat _ _ (by omega) (by omega)]
  rfl

/-- An `[a]` array cast to `[a, 1]` reads, at `(r, u)`, the operand at `r`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- The sum of a 1024 x 1024 tile along its second axis, read at row `p`: the sum of that row's entries. -/
theorem rowReduce_apply (src : FVec Ideal S1024x1024 .f32) (p : Fin 1024) :
    multiReduction (F := Ideal) .add [1] S1024 src 0x00000000#32 reduces_S1024x1024_S1024 (.inl rfl) rfl (ix1 p)
      = ∑ q : Fin 1024, src (ix2 p q) := by
  refine (Ideal.multiReduction_add_single src 0x00000000#32 reduces_S1024x1024_S1024 (.inl rfl) rfl (ix1 p)).trans ?_
  refine Finset.sum_congr rfl fun q _ => congrArg src ?_
  funext a
  match a with
  | ⟨0, _⟩ => exact Fin.ext rfl
  | ⟨1, _⟩ => exact Fin.ext rfl

/-- The sum of a 1024 x 1024 tile along its first axis, read at column `q`: the sum of that column's entries. -/
theorem colReduce_apply (src : FVec Ideal S1024x1024 .f32) (q : Fin 1024) :
    multiReduction (F := Ideal) .add [0] S1024 src 0x00000000#32 reduces_S1024x1024_S1024_2 (.inl rfl) rfl (ix1 q)
      = ∑ p : Fin 1024, src (ix2 p q) := by
  refine (Ideal.multiReduction_add_single src 0x00000000#32 reduces_S1024x1024_S1024_2 (.inl rfl) rfl (ix1 q)).trans ?_
  refine Finset.sum_congr rfl fun p _ => congrArg src ?_
  funext a
  match a with
  | ⟨0, _⟩ => exact Fin.ext rfl
  | ⟨1, _⟩ => exact Fin.ext rfl

/-- the row accumulator's new contents: old plus the tile's row sums -/
theorem pay5_apply (i : grid0.Coords) (x : Vec Ideal S1024x1024 .f32) (r : Vec Ideal S1024x1 .f32) (p : Fin 1024) :
    k0_pay5 (F := Ideal) i x r (ix2 p (0 : Fin 1)) = r (ix2 p (0 : Fin 1)) + ∑ q : Fin 1024, k0_pay2 (F := Ideal) i x (ix2 p q) := by
  unfold k0_pay5
  dsimp only
  rw [addf_apply, shapeCast_self, shapeCast_a_a1_apply]
  exact congrArg (r (ix2 p (0 : Fin 1)) + ·) (rowReduce_apply _ p)

/-- the tile's column sums -/
theorem pay3_apply (i : grid0.Coords) (x : Vec Ideal S1024x1024 .f32) (q : Fin 1024) :
    k0_pay3 (F := Ideal) i x (ix2 (0 : Fin 1) q) = ∑ p : Fin 1024, k0_pay2 (F := Ideal) i x (ix2 p q) := by
  unfold k0_pay3
  dsimp only
  rw [shapeCast_a_1a_apply]
  exact colReduce_apply _ q

/-- the column accumulator's slice: old slice plus the tile's column sums -/
theorem pay1_apply (v20 : FVec Ideal S1x1024 .f32) (v36 : Vec Ideal S1x1024 .f32) (y : S1x1024.Idx) :
    k0_pay1 (F := Ideal) v20 v36 y = v36 y + v20 y := by
  unfold k0_pay1
  rw [shapeCast_self]
  rfl

/-- the value the row accumulator is cleared to is zero -/
theorem pay4_apply (y : S1024x1.Idx) : k0_pay4 (F := Ideal) y = 0 := by
  unfold k0_pay4
  exact Ideal.ofBits_zero_f32

/-- the value the column accumulator is cleared to is zero -/
theorem pay6_apply (y : S1x8192.Idx) : k0_pay6 (F := Ideal) y = 0 := by
  unfold k0_pay6
  exact Ideal.ofBits_zero_f32

end Cert.KernelIdeal.Payload

end
-- ==== Proof.SpecSums.lean ====
/-
  The two accumulations of the kernel, as recurrences over the 64 grid points t = 8 * bi + bj, and their closed forms.

  The row accumulator restarts at every bj = 0 and adds, at point t, the sums over the tile's 1024 columns; after the
  last tile of a row of tiles it holds the sum over all 8192 columns. The column accumulator starts at zero at the first
  point and adds, at point t, the sums over the tile's 1024 rows into the columns of tile column bj alone; after the
  last point each column holds the sum over all 8192 rows. Both are re-associations of finite sums in the commutative
  monoid of the extended reals: no finiteness is needed.
-/
import proofs.«166390_j58007828300256_1_alg».proof.Proof.Spec
import Mathlib.Algebra.BigOperators.Fin
import Mathlib.Algebra.BigOperators.Intervals

noncomputable section

namespace Cert.Spec

open Idealize.ShloMosaic

/-- Entry (i, k) at natural-number coordinates (zero outside the matrix). -/
def entN (d : Fin 8192 → Fin 8192 → EReal) (i k : ℕ) : EReal :=
  if h : i < 8192 ∧ k < 8192 then ent d ⟨i, h.1⟩ ⟨k, h.2⟩ else 0

theorem entN_fin (d : Fin 8192 → Fin 8192 → EReal) (i k : Fin 8192) : entN d i.val k.val = ent d i k := by
  unfold entN; rw [dif_pos ⟨i.isLt, k.isLt⟩]

/-- A sum over the first n * m naturals, cut into n consecutive blocks of length m. -/
theorem sum_range_blocks {M : Type*} [AddCommMonoid M] (g : ℕ → M) (m : ℕ) :
    ∀ n, ∑ k ∈ Finset.range (n * m), g k = ∑ b ∈ Finset.range n, ∑ q ∈ Finset.range m, g (b * m + q) := by
  intro n
  induction n with
  | zero => simp
  | succ n ih => rw [Nat.succ_mul, Finset.sum_range_add, ih, Finset.sum_range_succ]

/-- A sum over the 8192 indices, cut into 8 consecutive blocks of 1024. -/
theorem sum_fin_blocks {M : Type*} [AddCommMonoid M] (g : ℕ → M) :
    ∑ k : Fin 8192, g k.val = ∑ b ∈ Finset.range 8, ∑ q : Fin 1024, g (b * 1024 + q.val) := by
  rw [Fin.sum_univ_eq_sum_range g 8192, show (8192 : ℕ) = 8 * 1024 from rfl, sum_range_blocks g 1024 8]
  refine Finset.sum_congr rfl (fun b _ => ?_)
  exact (Fin.sum_univ_eq_sum_range (fun q => g (b * 1024 + q)) 1024).symm

/-- The row accumulator after tile column bj of tile row bi: the sum over the first bj + 1 blocks of columns. -/
theorem row_partial (d : Fin 8192 → Fin 8192 → EReal) (R : ℕ → ℕ → EReal)
    (h0 : ∀ t, t < 64 → t % 8 = 0 → ∀ p, p < 1024 →
      R t p = 0 + ∑ q : Fin 1024, entN d ((t / 8) * 1024 + p) ((t % 8) * 1024 + q.val))
    (hs : ∀ t, t < 64 → t % 8 ≠ 0 → ∀ p, p < 1024 →
      R t p = R (t - 1) p + ∑ q : Fin 1024, entN d ((t / 8) * 1024 + p) ((t % 8) * 1024 + q.val))
    (bi : ℕ) (hbi : bi < 8) (p : ℕ) (hp : p < 1024) :
    ∀ bj, bj < 8 → R (8 * bi + bj) p
      = ∑ b ∈ Finset.range (bj + 1), ∑ q : Fin 1024, entN d (bi * 1024 + p) (b * 1024 + q.val) := by
  intro bj
  induction bj with
  | zero =>
    intro _
    have e2 : (8 * bi + 0) / 8 = bi := by omega
    have e3 : (8 * bi + 0) % 8 = 0 := by omega
    rw [h0 (8 * bi + 0) (by omega) e3 p hp, e2, e3, zero_add, Finset.sum_range_one]
  | succ bj ih =>
    intro hbj
    have e1 : 8 * bi + (bj + 1) - 1 = 8 * bi + bj := by omega
    have e2 : (8 * bi + (bj + 1)) / 8 = bi := by omega
    have e3 : (8 * bi + (bj + 1)) % 8 = bj + 1 := by omega
    rw [hs (8 * bi + (bj + 1)) (by omega) (by omega) p hp, e1, e2, e3, ih (by omega),
      Finset.sum_range_succ _ (bj + 1)]

/-- The row accumulation ends, after tile column 7 of tile row `bi`, at the row sums. -/
theorem row_closed (d : Fin 8192 → Fin 8192 → EReal) (R : ℕ → ℕ → EReal)
    (h0 : ∀ t, t < 64 → t % 8 = 0 → ∀ p, p < 1024 →
      R t p = 0 + ∑ q : Fin 1024, entN d ((t / 8) * 1024 + p) ((t % 8) * 1024 + q.val))
    (hs : ∀ t, t < 64 → t % 8 ≠ 0 → ∀ p, p < 1024 →
      R t p = R (t - 1) p + ∑ q : Fin 1024, entN d ((t / 8) * 1024 + p) ((t % 8) * 1024 + q.val)) :
    ∀ bi, bi < 8 → ∀ p, p < 1024 → R (8 * bi + 7) p = ∑ k : Fin 8192, entN d (bi * 1024 + p) k.val := by
  intro bi hbi p hp
  rw [row_partial d R h0 hs bi hbi p hp 7 (by omega), sum_fin_blocks (fun k => entN d (bi * 1024 + p) k)]

/-- What grid point t adds to column j: the sum over the tile's rows if j lies in tile column t % 8, else nothing. -/
def colTerm (d : Fin 8192 → Fin 8192 → EReal) (j t : ℕ) : EReal :=
  if j / 1024 = t % 8 then ∑ p : Fin 1024, entN d ((t / 8) * 1024 + p.val) j else 0

/-- The column accumulator after grid point t: the sum of what the points up to t added. -/
theorem col_partial (d : Fin 8192 → Fin 8192 → EReal) (C : ℕ → ℕ → EReal)
    (h0 : ∀ j, j < 8192 → C 0 j = if j / 1024 = 0 then 0 + ∑ p : Fin 1024, entN d p.val j else 0)
    (hs : ∀ t, t < 64 → t ≠ 0 → ∀ j, j < 8192 →
      C t j = if j / 1024 = t % 8 then C (t - 1) j + ∑ p : Fin 1024, entN d ((t / 8) * 1024 + p.val) j else C (t - 1) j)
    (j : ℕ) (hj : j < 8192) :
    ∀ t, t < 64 → C t j = ∑ t' ∈ Finset.range (t + 1), colTerm d j t' := by
  intro t
  induction t with
  | zero =>
    intro _
    rw [h0 j hj, Finset.sum_range_one]
    unfold colTerm
    simp only [Nat.zero_mod, Nat.zero_div, Nat.zero_mul, Nat.zero_add, zero_add]
  | succ t ih =>
    intro ht
    rw [hs (t + 1) ht (by omega) j hj, Nat.add_sub_cancel, Finset.sum_range_succ _ (t + 1), ← ih (by omega)]
    unfold colTerm
    by_cases h : j / 1024 = (t + 1) % 8
    · rw [if_pos h, if_pos h]
    · rw [if_neg h, if_neg h, add_zero]

/-- Over the 8 points of tile row bi, column j receives exactly the sum over that tile row's 1024 rows. -/
theorem colTerm_tile_row (d : Fin 8192 → Fin 8192 → EReal) (j : ℕ) (hj : j < 8192) (bi : ℕ) :
    ∑ bj ∈ Finset.range 8, colTerm d j (bi * 8 + bj) = ∑ p : Fin 1024, entN d (bi * 1024 + p.val) j := by
  have hmem : j / 1024 ∈ Finset.range 8 := Finset.mem_range.mpr (by omega)
  rw [← Finset.sum_ite_eq_of_mem (Finset.range 8) (j / 1024)
    (fun _ => ∑ p : Fin 1024, entN d (bi * 1024 + p.val) j) hmem]
  refine Finset.sum_congr rfl (fun bj hbj => ?_)
  have hb : bj < 8 := Finset.mem_range.mp hbj
  have e2 : (bi * 8 + bj) / 8 = bi := by omega
  have e3 : (bi * 8 + bj) % 8 = bj := by omega
  unfold colTerm
  rw [e2, e3]

/-- The column accumulation ends, after the last point, at the column sums. -/
theorem col_closed (d : Fin 8192 → Fin 8192 → EReal) (C : ℕ → ℕ → EReal)
    (h0 : ∀ j, j < 8192 → C 0 j = if j / 1024 = 0 then 0 + ∑ p : Fin 1024, entN d p.val j else 0)
    (hs : ∀ t, t < 64 → t ≠ 0 → ∀ j, j < 8192 →
      C t j = if j / 1024 = t % 8 then C (t - 1) j + ∑ p : Fin 1024, entN d ((t / 8) * 1024 + p.val) j else C (t - 1) j) :
    ∀ j, j < 8192 → C 63 j = ∑ k : Fin 8192, entN d k.val j := by
  intro j hj
  rw [col_partial d C h0 hs j hj 63 (by omega), show (63 + 1 : ℕ) = 8 * 8 from rfl,
    sum_range_blocks (colTerm d j) 8 8, sum_fin_blocks (fun k => entN d k j)]
  exact Finset.sum_congr rfl (fun bi _ => colTerm_tile_row d j hj bi)

end Cert.Spec

end
-- ==== Proof.KICommon.lean ====
/-
  The tile the body reads at grid point t = 8 * bi + bj, entry by entry.

  Entry (p, q) of the tile is entry (1024 * bi + p, 1024 * bj + q) of the matrix, and the body's exponential at (p, q)
  is the specification's entry there: the body's diagonal test compares exactly those two global coordinates.
-/
import proofs.«166390_j58007828300256_1_alg».proof.Proof.KIBody
import proofs.«166390_j58007828300256_1_alg».proof.Proof.KIPayload
import proofs.«166390_j58007828300256_1_alg».proof.Proof.SpecSums
import Idealize.ShloMosaic.Lib.Pipeline.Value
import Idealize.ShloMosaic.Lib.ValueIdx

set_option maxRecDepth 16384

noncomputable section

namespace Cert.KernelIdeal.Sums

open Cert.KernelIdeal Cert.KernelIdeal.Gen Cert.KernelIdeal.Body Cert.KernelIdeal.Payload
open Idealize.ShloMosaic Idealize.ShloMosaic.TcCoe Idealize.ShloMosaic.ValueIdx Idealize.SL.Sem

variable (m : (ℓ : Loc nD τ sig) → Buf (Elt Ideal) ℓ)

/-- The matrix as the region finds it, at its literal type. -/
abbrev matrixAt (c : Dev nD) : Vec Ideal S8192x8192 .f32 := V m c main_arg0

/-- The same as a function of two coordinates. -/
abbrev D (c : Dev nD) : Fin 8192 → Fin 8192 → EReal := Cert.Spec.mat (matrixAt m c)

/-- The tile at point `t`, at its literal type. -/
abbrev tile (c : Dev nD) (t : Fin cfg0.N) : Vec Ideal S1024x1024 .f32 := iblk m c 0 t

/-- Point t has tile row t / 8 and tile column t % 8. -/
theorem coords_eq : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

/-- The tile's block indices are those. -/
theorem tile_index : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)

/-- Entry (p, q) of the tile is the matrix at (1024 * (t / 8) + p, 1024 * (t % 8) + q). -/
theorem tile_apply (c : Dev nD) (t : Fin cfg0.N) (p q : Fin 1024) (a b : Fin 8192)
    (ha : a.val = (t.val / 8) * 1024 + p.val) (hb : b.val = (t.val % 8) * 1024 + q.val) :
    tile m c t (ix2 p q) = matrixAt m c (ix2 a b) := by
  obtain ⟨e0, e1⟩ := tile_index t
  show V m c main_arg0 (((cfg0.win 0).blk t).view.emb (ix2 p q)) = V m c main_arg0 (ix2 a b)
  refine congrArg _ (funext fun ax => Fin.ext ?_)
  match ax with
  | ⟨0, _⟩ => show win0_0.index t (0 : Fin 2) * 1024 + 1 * p.val = a.val; omega
  | ⟨1, _⟩ => show win0_0.index t (1 : Fin 2) * 1024 + 1 * q.val = b.val; omega

/-- The body's exponential at (p, q) of the tile is the specification's entry at the global coordinates. -/
theorem pay2_tile (c : Dev nD) (t : Fin cfg0.N) (p q : Fin 1024) :
    k0_pay2 (F := Ideal) (grid0.coords t) (tile m c t) (ix2 p q)
      = Cert.Spec.entN (D m c) ((t.val / 8) * 1024 + p.val) ((t.val % 8) * 1024 + q.val) := by
  have hN : t.val < 64 := lt_of_lt_of_eq t.isLt N_eq
  have hp := p.isLt
  have hq := q.isLt
  obtain ⟨e0, e1⟩ := coords_eq t
  rw [pay2_apply, e0, e1]
  unfold Cert.Spec.entN
  rw [dif_pos ⟨by omega, by omega⟩]
  unfold Cert.Spec.ent
  rw [tile_apply m c t p q ⟨(t.val / 8) * 1024 + p.val, by omega⟩ ⟨(t.val % 8) * 1024 + q.val, by omega⟩ rfl rfl]
  rfl

end Cert.KernelIdeal.Sums

end
-- ==== Proof.KITail.lean ====
/-
  The kernel program's closing host operations, as the shared closing function.

  After the region the program flattens its two results (an 8192 x 1 array of row sums and a 1 x 8192 array of column
  sums) to vectors, adds them, takes the logarithm, adds the diagonal of the input (gathered at the start indices
  (i, i)), squares, totals and divides. Read at the last operation's result, that is the closing function of the
  specification applied to the vector j ↦ first result at (j, 0) + second result at (0, j) and to the gathered
  diagonal. The input's array is never written by the region, so the gather reads the launch contents.
-/
import proofs.«166390_j58007828300256_1_alg».proof.Proof.Gen.KernelIdeal.Frame
import proofs.«166390_j58007828300256_1_alg».proof.Proof.Spec
import Idealize.ShloMosaic.Lib.StableHlo.Run
import Idealize.ShloMosaic.Lib.Pipeline.FrameSuffix
import Idealize.ShloMosaic.Lib.ValueIdx
import Idealize.ShloMosaic.Lib.ValueLayout
import Idealize.ShloMosaic.Lib.Pipeline.Value

noncomputable section

namespace Cert.KernelIdeal.Tail

open Cert.KernelIdeal Cert.KernelIdeal.Gen Idealize.ShloMosaic Idealize.ShloMosaic.ValueIdx

/-- The diagonal as the kernel's program gathers it: the printed gather applied to the printed index chain (both
    columns of the start indices are the row number, wrapped by 8192 if negative); kept as ONE opaque function of the
    matrix. -/
def diagK (x : (⟨S8192x8192, .f32⟩ : BufTy).Contents (Elt Ideal)) : (⟨S8192, .f32⟩ : BufTy).Contents (Elt Ideal) :=
  Host.gather gather_S8192x8192_S8192x2_S8192_n_01_n_n_01_1_11 x
    (concatenate S8192x2 1
      [⟨S8192x1, broadcastInDim S8192x1 ![0] bcast_S8192_S8192x1_0
          (select (cmpi .slt (iotaInDim S8192 32 0) (broadcastInDim S8192 ![] bcast_S_S8192 (constantI S_ 32 0#32)))
            (addi (iotaInDim S8192 32 0) (broadcastInDim S8192 ![] bcast_S_S8192 (constantI S_ 32 8192#32)))
            (iotaInDim S8192 32 0))⟩,
       ⟨S8192x1, broadcastInDim S8192x1 ![0] bcast_S8192_S8192x1_0
          (select (cmpi .slt (iotaInDim S8192 32 0) (broadcastInDim S8192 ![] bcast_S_S8192 (constantI S_ 32 0#32)))
            (addi (iotaInDim S8192 32 0) (broadcastInDim S8192 ![] bcast_S_S8192 (constantI S_ 32 8192#32)))
            (iotaInDim S8192 32 0))⟩]
      concatenates_S8192x1_S8192x1_S8192x2_d1)

variable (m : (ℓ : Loc nD τ sig) → Buf (Elt Ideal) ℓ)
  (dats : (p : Fin 1) → (c : Dev nD) → Pipeline.Dat τ (Elt Ideal) Unit ℕ (UR sig nD τ) ℕ (cfgs p) c)

/-! ## What the region leaves at the three arrays -/

/-- Read at the first result's array: that array after the last grid point. -/
theorem W_rows (c : Dev nD) :
    Pipeline.withArrays (cfgs 0).spec c (V0 m c) (fun w => (dats 0 c).arrAt w (cfgs 0).N) (Proc.devRef .tc main_v0_0)
      = (dats 0 c).arrAt 1 cfg0.N :=
  Pipeline.withArrays_arr spec0 launch0.win.arr_inj c _ _ 1

/-- Read at the second result's array: that array after the last grid point. -/
theorem W_cols (c : Dev nD) :
    Pipeline.withArrays (cfgs 0).spec c (V0 m c) (fun w => (dats 0 c).arrAt w (cfgs 0).N) (Proc.devRef .tc main_v0_1)
      = (dats 0 c).arrAt 2 cfg0.N :=
  Pipeline.withArrays_arr spec0 launch0.win.arr_inj c _ _ 2

/-- The input's array is an input window's: no point writes it back, so the region leaves the launch contents. -/
theorem W_arg (hA : ∀ c w, (dats 0 c).A w = Gen.V m c (Pipeline.arrRef spec0 w)) (c : Dev nD) :
    Pipeline.withArrays (cfgs 0).spec c (V0 m c) (fun w => (dats 0 c).arrAt w (cfgs 0).N) (Proc.devRef .tc main_arg0)
      = m ((c.tc : Thread nD τ).loc main_arg0) :=
  (Pipeline.withArrays_arr spec0 launch0.win.arr_inj c _ _ 0).trans
    (((dats 0 c).arrAt_in 0 rfl _).trans ((hA c 0).trans (V_main_arg0 m c)))

/-! ## The two results flattened and added -/

/-- Index j of the sum of the two flattened results is the first result at (j, 0) plus the second at (0, j): a
    flattening keeps the row-major position, which is j * 1 + 0 = j in the 8192 x 1 array and 0 * 8192 + j = j in the
    1 x 8192 array. -/
theorem sum_reshapes (R : (⟨S8192x1, .f32⟩ : BufTy).Contents (Elt Ideal)) (C : (⟨S1x8192, .f32⟩ : BufTy).Contents (Elt Ideal)) :
    (addf (F := Ideal) (φ := .f32) (shapeCast S8192 R shapeCasts_S8192x1_S8192) (shapeCast S8192 C shapeCasts_S1x8192_S8192)
        : (⟨S8192, .f32⟩ : BufTy).Contents (Elt Ideal))
      = fun j => R (ix2 (j 0) (0 : Fin 1)) + C (ix2 (0 : Fin 1) (j 0)) := by
  funext j
  have hr : shapeCast S8192 R shapeCasts_S8192x1_S8192 j = R (ix2 (j 0) (0 : Fin 1)) :=
    shapeCast_apply R shapeCasts_S8192x1_S8192 j (ix2 (j 0) (0 : Fin 1)) (by
      rw [Shape.rowMajor_val_two, Shape.rowMajor_val_one]
      show (j 0).val * 1 + 0 = (j 0).val
      omega)
  have hc : shapeCast S8192 C shapeCasts_S1x8192_S8192 j = C (ix2 (0 : Fin 1) (j 0)) :=
    shapeCast_apply C shapeCasts_S1x8192_S8192 j (ix2 (0 : Fin 1) (j 0)) (by
      rw [Shape.rowMajor_val_two, Shape.rowMajor_val_one]
      show 0 * 8192 + (j 0).val = (j 0).val
      omega)
  show shapeCast S8192 R shapeCasts_S8192x1_S8192 j + shapeCast S8192 C shapeCasts_S1x8192_S8192 j = _
  rw [hr, hc]

/-! ## The closing operations' result -/

set_option maxHeartbeats 4000000 in
/-- The last host operation's result is the specification's closing function of the vector
    j ↦ R (j, 0) + C (0, j), with R and C the two results' arrays as the region leaves them, and of the diagonal
    gathered from the launch contents of the input. Each operation's result is read off in order; the two arrays and
    the input are then named, the sum of the flattened results is rewritten by `sum_reshapes`, and what is left is the
    closing function's own text. -/
theorem tail_result (hA : ∀ c w, (dats 0 c).A w = Gen.V m c (Pipeline.arrRef spec0 w)) (c : Dev nD)
    (R : (⟨S8192x1, .f32⟩ : BufTy).Contents (Elt Ideal)) (C : (⟨S1x8192, .f32⟩ : BufTy).Contents (Elt Ideal))
    (hR : (dats 0 c).arrAt 1 cfg0.N = R) (hC : (dats 0 c).arrAt 2 cfg0.N = C) :
    Pipeline.afterTail₀ cfgs dats 0 (Gen.V0 m) [hostOps1] c main_v23
      = Cert.Spec.tail reducesTo_S8192_S_d0 h_S_
          (fun j => R (ix2 (j 0) (0 : Fin 1)) + C (ix2 (0 : Fin 1) (j 0)))
          (diagK (m ((c.tc : Thread nD τ).loc main_arg0))) := by
  unfold Pipeline.afterTail₀
  rw [show ([hostOps1 (F := Ideal)] : List (List (HloOp τ sig (Elt Ideal)))).flatten = hostOps1 (F := Ideal) from List.append_nil _]
  have e0 := W_arg m dats hA c
  have e1 := (W_rows m dats c).trans hR
  have e2 := (W_cols m dats c).trans hC
  generalize Pipeline.withArrays (cfgs 0).spec c (V0 m c) (fun w => (dats 0 c).arrAt w (cfgs 0).N) = W at e0 e1 e2 ⊢
  after_results
  rw [e0, e1, e2, ← sum_reshapes R C]
  generalize m ((c.tc : Thread nD τ).loc main_arg0) = x
  rfl

end Cert.KernelIdeal.Tail

end
-- ==== Proof.KIPieces.lean ====
/-
  What each case of the body leaves in the two accumulators, through the payloads.

  The first buffer always ends at "old contents plus the tile's row sums", the old contents being zero where the case
  zeroes the buffer first. The second buffer ends at its old contents (zero at the first point) with the slice of tile
  column bj replaced by "old slice plus the tile's column sums".
-/
import proofs.«166390_j58007828300256_1_alg».proof.Proof.KIBody
import Idealize.ShloMosaic.Lib.Pipeline.Value
import Idealize.ShloMosaic.Lib.WritesUnit

set_option maxRecDepth 16384

noncomputable section

namespace Cert.KernelIdeal.Pieces

open Cert.KernelIdeal Cert.KernelIdeal.Gen Cert.KernelIdeal.Body
open Idealize.ShloMosaic Idealize.ShloMosaic.TcCoe Idealize.ShloMosaic.Tactic
open Idealize.SL Idealize.SL.Sem

variable {F : FTy → Type} [FloatOps F]

theorem off00 : (![0, 0] : Fin 2 → ℕ) = fun _ => 0 := by
  funext a; fin_cases a <;> rfl

/-! ## The first buffer -/

theorem rowInner_eq (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : ¬rowReset i) (hc : ¬colReset i) (x : Vec F S1024x1024 .f32) (r : Vec F S1024x1 .f32) (s : Vec F S1x8192 .f32) :
    rowInner c i a2 h2 a3 h3 a4 h4 hr hc x r s = k0_pay5 i x r := by
  unfold rowInner
  rw [View.read_writes_junk_eq_canon]
  unfold runInner; dsimp only; sl_unfold_words
  rw [View.canon_unit_zero off00]
  simp only [View.readAt_eq_ld, h2.read_unread, h3.read_unread, View.ld_unit_zero (S := S1024x1024) off00, View.ld_unit_zero (S := S1024x1) off00]

theorem rowFirst_eq (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : rowReset i) (hc : colReset i) (x : Vec F S1024x1024 .f32) :
    rowFirst c i a2 h2 a3 h3 a4 h4 hr hc x = k0_pay5 i x (k0_pay4 (F := F)) := by
  unfold rowFirst
  rw [View.read_writes_junk_eq_canon]
  unfold runFirst; dsimp only; sl_unfold_words
  rw [View.canon_cons_unit_zero (S := S1024x1) off00]
  simp only [View.readAt_eq_ld, h2.read_unread, View.ld_unit_zero (S := S1024x1024) off00, View.readCov_unit_zero (S := S1024x1) _ off00]

theorem rowRowStart_eq (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : rowReset i) (hc : ¬colReset i) (x : Vec F S1024x1024 .f32) (s : Vec F S1x8192 .f32) :
    rowRowStart c i a2 h2 a3 h3 a4 h4 hr hc x s = k0_pay5 i x (k0_pay4 (F := F)) := by
  unfold rowRowStart
  rw [View.read_writes_junk_eq_canon]
  unfold runRowStart; dsimp only; sl_unfold_words
  rw [View.canon_cons_unit_zero (S := S1024x1) off00]
  simp only [View.readAt_eq_ld, h2.read_unread, View.ld_unit_zero (S := S1024x1024) off00, View.readCov_unit_zero (S := S1024x1) _ off00]

/-! ## The second buffer -/

/-- Under the slice of tile column bj: the old slice plus the tile's column sums. -/
theorem colInner_mem (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : ¬rowReset i) (hc : ¬colReset i) (x : Vec F S1024x1024 .f32) (r : Vec F S1024x1 .f32) (s : Vec F S1x8192 .f32)
    (y : S1x8192.Idx) (z : S1x1024.Idx) (hz : ∀ a, (y a).val = k0_off1 i a + (z a).val) :
    colInner c i a2 h2 a3 h3 a4 h4 hr hc x r s y
      = k0_pay1 (k0_pay3 i x) (fun z' => s ((Rect.unit (s := S1x8192) (k0_off1 i) S1x1024.size (k0_off1_inb i)).emb z')) z := by
  unfold colInner
  unfold runInner; dsimp only; sl_unfold_run_names
  rw [View.read_writes_cons_unit_of_mem a4.view (h4.unread s) (k0_off1_inb i) _ [] y z rfl hz]
  simp only [View.readAt_eq_ld, h2.read_unread, h4.read_unread, View.ld_unit_zero (S := S1024x1024) off00]
  rfl

/-- Elsewhere: the old contents. -/
theorem colInner_not_mem (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : ¬rowReset i) (hc : ¬colReset i) (x : Vec F S1024x1024 .f32) (r : Vec F S1024x1 .f32) (s : Vec F S1x8192 .f32)
    (y : S1x8192.Idx) (a : Fin 2) (hy : (y a).val < k0_off1 i a ∨ k0_off1 i a + S1x1024.size a ≤ (y a).val) :
    colInner c i a2 h2 a3 h3 a4 h4 hr hc x r s y = s y := by
  unfold colInner
  unfold runInner; dsimp only; sl_unfold_run_names
  rw [View.read_writes_cons_unit_of_not_mem a4.view (h4.unread s) (k0_off1_inb i) _ [] y rfl a hy, View.writes_nil, h4.read_unread]

theorem colRowStart_mem (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : rowReset i) (hc : ¬colReset i) (x : Vec F S1024x1024 .f32) (s : Vec F S1x8192 .f32)
    (y : S1x8192.Idx) (z : S1x1024.Idx) (hz : ∀ a, (y a).val = k0_off1 i a + (z a).val) :
    colRowStart c i a2 h2 a3 h3 a4 h4 hr hc x s y
      = k0_pay1 (k0_pay3 i x) (fun z' => s ((Rect.unit (s := S1x8192) (k0_off1 i) S1x1024.size (k0_off1_inb i)).emb z')) z := by
  unfold colRowStart
  unfold runRowStart; dsimp only; sl_unfold_run_names
  rw [View.read_writes_cons_unit_of_mem a4.view (h4.unread s) (k0_off1_inb i) _ [] y z rfl hz]
  simp only [View.readAt_eq_ld, h2.read_unread, h4.read_unread, View.ld_unit_zero (S := S1024x1024) off00]
  rfl

theorem colRowStart_not_mem (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : rowReset i) (hc : ¬colReset i) (x : Vec F S1024x1024 .f32) (s : Vec F S1x8192 .f32)
    (y : S1x8192.Idx) (a : Fin 2) (hy : (y a).val < k0_off1 i a ∨ k0_off1 i a + S1x1024.size a ≤ (y a).val) :
    colRowStart c i a2 h2 a3 h3 a4 h4 hr hc x s y = s y := by
  unfold colRowStart
  unfold runRowStart; dsimp only; sl_unfold_run_names
  rw [View.read_writes_cons_unit_of_not_mem a4.view (h4.unread s) (k0_off1_inb i) _ [] y rfl a hy, View.writes_nil, h4.read_unread]

/-- At the first point the old contents are the zero fill. -/
theorem colFirst_mem (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : rowReset i) (hc : colReset i) (x : Vec F S1024x1024 .f32)
    (y : S1x8192.Idx) (z : S1x1024.Idx) (hz : ∀ a, (y a).val = k0_off1 i a + (z a).val) :
    colFirst c i a2 h2 a3 h3 a4 h4 hr hc x y
      = k0_pay1 (k0_pay3 i x) (fun z' => k0_pay6 (F := F) ((Rect.unit (s := S1x8192) (k0_off1 i) S1x1024.size (k0_off1_inb i)).emb z')) z := by
  unfold colFirst
  unfold runFirst; dsimp only; sl_unfold_run_names
  rw [View.read_writes_cons_unit_of_mem a4.view a4.view.junk (k0_off1_inb i) _ _ y z rfl hz]
  simp only [View.readAt_eq_ld, h2.read_unread, View.ld_unit_zero (S := S1024x1024) off00, View.read_writes_junk_eq_canon,
    View.canon_unit_zero (S := S1x8192) off00]
  rfl

theorem colFirst_not_mem (c : Dev nD) (i : grid0.Coords) (a2 : Memref sig .tc .vmem S1024x1024 .f32) (h2 : a2.IsWhole)
    (a3 : Memref sig .tc .vmem S1024x1 .f32) (h3 : a3.IsWhole) (a4 : Memref sig .tc .vmem S1x8192 .f32) (h4 : a4.IsWhole)
    (hr : rowReset i) (hc : colReset i) (x : Vec F S1024x1024 .f32)
    (y : S1x8192.Idx) (a : Fin 2) (hy : (y a).val < k0_off1 i a ∨ k0_off1 i a + S1x1024.size a ≤ (y a).val) :
    colFirst c i a2 h2 a3 h3 a4 h4 hr hc x y = k0_pay6 (F := F) y := by
  unfold colFirst
  unfold runFirst; dsimp only; sl_unfold_run_names
  rw [View.read_writes_cons_unit_of_not_mem a4.view a4.view.junk (k0_off1_inb i) _ _ y rfl a hy,
    View.read_writes_junk_eq_canon, View.canon_unit_zero (S := S1x8192) off00]

/-- The slice's offsets: row 0, column 1024 * bj. -/
theorem off1_eq : ∀ i : grid0.Coords, k0_off1 i = ![0, (i 1).val * 1024] := by decide +kernel

end Cert.KernelIdeal.Pieces

end
-- ==== Proof.KIRows.lean ====
/-
  The kernel's first result, the 8192 x 1 array of row sums, after the run.

  Grid point t = 8 * bi + bj adds to the 1024 x 1 row buffer, at row p, the sum over the tile's 1024 columns q of the
  entry (1024 * bi + p, 1024 * bj + q) of the matrix of exponentials; the buffer is zeroed first when bj = 0 and is
  written back to rows [1024 * bi, 1024 * bi + 1024) of the array after bj = 7, when it holds the sum over all 8192
  columns. Every row of the array lies in exactly one such block, so the array ends at the specification's row sums.
-/
import proofs.«166390_j58007828300256_1_alg».proof.Proof.KIPieces
import proofs.«166390_j58007828300256_1_alg».proof.Proof.KICommon
import Idealize.ShloMosaic.Lib.Pipeline.Value
import Idealize.ShloMosaic.Lib.ValueIdx

set_option maxRecDepth 16384

noncomputable section

namespace Cert.KernelIdeal.Rows

open Cert.KernelIdeal Cert.KernelIdeal.Gen Cert.KernelIdeal.Body Cert.KernelIdeal.Pieces Cert.KernelIdeal.Payload
open Cert.KernelIdeal.Sums Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ)

/-! ## One grid point -/

/-- At the first tile of a row of tiles the row buffer restarts from zero: it ends at the tile's row sums. -/
theorem row_reset (c : Dev nD) (t : Fin cfg0.N) (p : Fin 1024) (h0 : t.val % 8 = 0) :
    (outsAt m c t.val t.isLt).1 (ix2 p (0 : Fin 1))
      = 0 + ∑ q : Fin 1024, Cert.Spec.entN (D m c) ((t.val / 8) * 1024 + p.val) ((t.val % 8) * 1024 + q.val) := by
  by_cases h1 : t.val = 0
  · rw [outsAt_first m c t h1]; dsimp only
    rw [rowFirst_eq, pay5_apply, pay4_apply]
    exact congrArg (0 + ·) (Finset.sum_congr rfl fun q _ => pay2_tile m c t p q)
  · rw [outsAt_rowStart m c t h0 h1]; dsimp only
    rw [rowRowStart_eq, pay5_apply, pay4_apply]
    exact congrArg (0 + ·) (Finset.sum_congr rfl fun q _ => pay2_tile m c t p q)

/-- At any other tile the row buffer adds the tile's row sums to what the point before left. -/
theorem row_acc (c : Dev nD) (t : Fin cfg0.N) (p : Fin 1024) (h0 : ¬t.val % 8 = 0) :
    (outsAt m c t.val t.isLt).1 (ix2 p (0 : Fin 1))
      = (outsAt m c (prev t).val (prev t).isLt).1 (ix2 p (0 : Fin 1))
        + ∑ q : Fin 1024, Cert.Spec.entN (D m c) ((t.val / 8) * 1024 + p.val) ((t.val % 8) * 1024 + q.val) := by
  rw [outsAt_inner m c t h0]; dsimp only
  rw [rowInner_eq, pay5_apply]
  exact congrArg (_ + ·) (Finset.sum_congr rfl fun q _ => pay2_tile m c t p q)

/-! ## The recurrence over the grid and its closed form -/

/-- The row buffer after point `t` at row `p`, as a total function of two naturals (zero outside the grid). -/
def Rn (c : Dev nD) (t p : ℕ) : EReal :=
  if h : t < cfg0.N ∧ p < 1024 then (outsAt m c t h.1).1 (ix2 ⟨p, h.2⟩ (0 : Fin 1)) else 0

theorem Rn_reset (c : Dev nD) : ∀ t, t < 64 → t % 8 = 0 → ∀ p, p < 1024 →
    Rn m c t p = 0 + ∑ q : Fin 1024, Cert.Spec.entN (D m c) ((t / 8) * 1024 + p) ((t % 8) * 1024 + q.val) := by
  intro t ht h0 p hp
  have htN : t < cfg0.N := lt_of_lt_of_eq ht N_eq.symm
  unfold Rn
  rw [dif_pos ⟨htN, hp⟩]
  exact row_reset m c ⟨t, htN⟩ ⟨p, hp⟩ h0

theorem Rn_acc (c : Dev nD) : ∀ t, t < 64 → t % 8 ≠ 0 → ∀ p, p < 1024 →
    Rn m c t p = Rn m c (t - 1) p
      + ∑ q : Fin 1024, Cert.Spec.entN (D m c) ((t / 8) * 1024 + p) ((t % 8) * 1024 + q.val) := by
  intro t ht h0 p hp
  have htN : t < cfg0.N := lt_of_lt_of_eq ht N_eq.symm
  have htN' : t - 1 < cfg0.N := lt_of_le_of_lt (Nat.sub_le _ _) htN
  unfold Rn
  rw [dif_pos ⟨htN, hp⟩, dif_pos ⟨htN', hp⟩]
  exact row_acc m c ⟨t, htN⟩ ⟨p, hp⟩ h0

/-- After the last tile of row of tiles `bi` the row buffer holds, at row `p`, the specification's sum of row
    1024 * bi + p. -/
theorem Rn_closed (c : Dev nD) (bi : ℕ) (hbi : bi < 8) (p : ℕ) (hp : p < 1024) (h : bi * 1024 + p < 8192) :
    Rn m c (8 * bi + 7) p = Cert.Spec.rowSum (D m c) ⟨bi * 1024 + p, h⟩ := by
  rw [Cert.Spec.row_closed (D m c) (Rn m c) (Rn_reset m c) (Rn_acc m c) bi hbi p hp]
  unfold Cert.Spec.rowSum
  exact Finset.sum_congr rfl fun k _ => Cert.Spec.entN_fin (D m c) ⟨bi * 1024 + p, h⟩ k

/-- The same, read at a grid point that ends a row of tiles. -/
theorem row_at_flush (c : Dev nD) (t : Fin cfg0.N) (h7 : t.val % 8 = 7) (p : Fin 1024) (h : (t.val / 8) * 1024 + p.val < 8192) :
    (outsAt m c t.val t.isLt).1 (ix2 p (0 : Fin 1)) = Cert.Spec.rowSum (D m c) ⟨(t.val / 8) * 1024 + p.val, h⟩ := by
  have hN : t.val < 64 := lt_of_lt_of_eq t.isLt N_eq
  have e : Rn m c (8 * (t.val / 8) + 7) p.val = (outsAt m c t.val t.isLt).1 (ix2 p (0 : Fin 1)) := by
    have et : 8 * (t.val / 8) + 7 = t.val := by omega
    rw [et]
    unfold Rn
    rw [dif_pos ⟨t.isLt, p.isLt⟩]
  rw [← e]
  exact Rn_closed m c (t.val / 8) (by omega) p.val p.isLt h

/-! ## The array after the run -/

/-- What the array ends holding: at row `i` the specification's sum of row `i`. -/
abbrev G (c : Dev nD) : (⟨S8192x1, .f32⟩ : BufTy).Contents (Elt Ideal) := fun y => Cert.Spec.rowSum (D m c) (y 0)

/-- The row window's block at point `t`: block row t / 8, the one block column. -/
theorem row_index : ∀ t : Fin cfg0.N, win0_1.index t (0 : Fin 2) = t.val / 8 ∧ win0_1.index t (1 : Fin 2) = 0 :=
  (by decide +kernel : ∀ t : Fin grid0.N, win0_1.index t (0 : Fin 2) = t.val / 8 ∧ win0_1.index t (1 : Fin 2) = 0)

/-- What a point that ends a row of tiles writes back is its block of `G`. -/
theorem flushed_eq (c : Dev nD) (t : Fin cfg0.N) (hf : (cfg0.win 1).flush t = true) :
    (dats m 0 c).flushed 1 t = ((cfg0.win 1).blk t).view.read (Elt Ideal) (G m c) := by
  have h7 : t.val % 8 = 7 := (flush0_1 t).mp hf
  have hN : t.val < 64 := lt_of_lt_of_eq t.isLt N_eq
  obtain ⟨e0, e1⟩ := row_index t
  show (dats m 0 c).after 1 t = _
  rw [after_row]
  funext y
  have hy0 : (y 0).val < 1024 := (y 0).isLt
  have hy1 : (y 1).val < 1 := (y 1).isLt
  have ey : y = ix2 (⟨(y 0).val, hy0⟩ : Fin 1024) (0 : Fin 1) := by
    funext a
    match a with
    | ⟨0, _⟩ => exact Fin.ext rfl
    | ⟨1, _⟩ => exact Fin.ext (by show (y 1).val = 0; omega)
  show (outsAt m c t.val t.isLt).1 y = Cert.Spec.rowSum (D m c) ((((cfg0.win 1).blk t).view.emb y) 0)
  have hb : (t.val / 8) * 1024 + (y 0).val < 8192 := by omega
  have er : (((cfg0.win 1).blk t).view.emb y) 0 = (⟨(t.val / 8) * 1024 + (y 0).val, hb⟩ : Fin 8192) := by
    apply Fin.ext
    show win0_1.index t (0 : Fin 2) * 1024 + 1 * (y 0).val = (t.val / 8) * 1024 + (y 0).val
    omega
  rw [er]
  refine Eq.trans ?_ (row_at_flush m c t h7 ⟨(y 0).val, hy0⟩ hb)
  exact congrArg (outsAt m c t.val t.isLt).1 ey

/-- An index of the array lies in point `t`'s block iff each coordinate lies in the block's range on its axis. -/
theorem mem_blk (t : Fin cfg0.N) (i : S8192x1.Idx) :
    i ∈ ((cfg0.win 1).blk t).view.set
      ↔ ∀ a : Fin 2, win0_1.index t a * S1024x1.size a ≤ (i a).val
          ∧ (i a).val < win0_1.index t a * S1024x1.size a + S1024x1.size a := by
  show i ∈ ((View.whole main_v0_0).slice (win0_1.rect t)).set ↔ _
  rw [View.set_slice_whole, Rect.mem_set_unit]
  exact Iff.rfl

/-- THE FIRST RESULT AFTER THE RUN: row `i` holds the specification's sum of row `i`. Row `i` lies in the block written
    back after the last tile of row of tiles `i / 1024`. -/
theorem rows_final (c : Dev nD) (i : Fin 8192) :
    (dats m 0 c).arrAt 1 cfg0.N (ix2 i (0 : Fin 1)) = Cert.Spec.rowSum (D m c) i := by
  have hi : i.val < 8192 := i.isLt
  have htN : 8 * (i.val / 1024) + 7 < cfg0.N := lt_of_lt_of_eq (by omega) N_eq.symm
  have hf : (cfg0.win 1).flush ⟨8 * (i.val / 1024) + 7, htN⟩ = true :=
    (flush0_1 ⟨8 * (i.val / 1024) + 7, htN⟩).mpr (by show (8 * (i.val / 1024) + 7) % 8 = 7; omega)
  have hmem : ix2 i (0 : Fin 1) ∈ ((cfg0.win 1).blk ⟨8 * (i.val / 1024) + 7, htN⟩).view.set := by
    rw [mem_blk]
    obtain ⟨e0, e1⟩ := row_index ⟨8 * (i.val / 1024) + 7, htN⟩
    have e0' : win0_1.index ⟨8 * (i.val / 1024) + 7, htN⟩ (0 : Fin 2) = (8 * (i.val / 1024) + 7) / 8 := e0
    intro a
    match a with
    | ⟨0, _⟩ =>
      show win0_1.index ⟨8 * (i.val / 1024) + 7, htN⟩ (0 : Fin 2) * 1024 ≤ i.val
        ∧ i.val < win0_1.index ⟨8 * (i.val / 1024) + 7, htN⟩ (0 : Fin 2) * 1024 + 1024
      omega
    | ⟨1, _⟩ =>
      show win0_1.index ⟨8 * (i.val / 1024) + 7, htN⟩ (1 : Fin 2) * 1 ≤ 0
        ∧ 0 < win0_1.index ⟨8 * (i.val / 1024) + 7, htN⟩ (1 : Fin 2) * 1 + 1
      omega
  exact (dats m 0 c).arrAt_apply_of_mem 1 (G m c) (flushed_eq m c) cfg0.N ⟨8 * (i.val / 1024) + 7, htN⟩
    (ix2 i (0 : Fin 1)) htN hf hmem

end Cert.KernelIdeal.Rows

end
-- ==== Proof.KICols.lean ====
/-
  The kernel's second result array after the run: the specification's column sums.

  The second accumulator is a 1 x 8192 buffer kept over the whole 8 x 8 grid; its block index is (0, 0) at every point,
  so its block is the whole array. At point t = 8 * bi + bj the body replaces the slice of columns
  1024 * bj .. 1024 * bj + 1023 by "old slice plus the tile's column sums" and leaves every other column alone; at the
  first point the old contents are the zero fill. So column j obeys the recurrence

      C 0 j = if j / 1024 = 0 then 0 + (sum over the first tile's rows p of entry (p, j)) else 0
      C t j = if j / 1024 = t % 8 then C (t - 1) j + (sum over p of entry (1024 * (t / 8) + p, j)) else C (t - 1) j

  whose closed form after the last point, t = 63, is the sum over all 8192 rows of entry (k, j): the column sum.
  The buffer is written back once, after the last point, and that one block covers the array.
-/
import proofs.«166390_j58007828300256_1_alg».proof.Proof.KIPieces
import proofs.«166390_j58007828300256_1_alg».proof.Proof.KICommon
import Idealize.ShloMosaic.Lib.Pipeline.Value
import Idealize.ShloMosaic.Lib.ValueIdx

set_option maxRecDepth 16384

noncomputable section

namespace Cert.KernelIdeal.Cols

open Cert.KernelIdeal Cert.KernelIdeal.Gen Cert.KernelIdeal.Body Cert.KernelIdeal.Pieces Cert.KernelIdeal.Payload
open Cert.KernelIdeal.Sums Idealize.ShloMosaic Idealize.ShloMosaic.ValueIdx

variable (m : (ℓ : Loc nD τ sig) → Buf (Elt Ideal) ℓ)

/-! ## One grid point -/

/-- The slice the body updates at point t starts at row 0, column 1024 * (t % 8). -/
theorem off_at (t : Fin cfg0.N) : k0_off1 (grid0.coords t) = ![0, (t.val % 8) * 1024] := by
  rw [off1_eq, (coords_eq t).2]

/-- Column j = 1024 * (t % 8) + q of the buffer is column q of that slice. -/
theorem in_slice (t : Fin cfg0.N) (j : Fin 8192) (q : Fin 1024) (hq : j.val = (t.val % 8) * 1024 + q.val) :
    ∀ a, ((ix2 (0 : Fin 1) j : S1x8192.Idx) a).val
      = k0_off1 (grid0.coords t) a + ((ix2 (0 : Fin 1) q : S1x1024.Idx) a).val := by
  intro a
  rw [off_at]
  match a with
  | ⟨0, _⟩ => rfl
  | ⟨1, _⟩ => exact hq

/-- A column of another tile column lies outside the slice, along the second axis. -/
theorem out_slice (t : Fin cfg0.N) (j : Fin 8192) (hj : ¬ j.val / 1024 = t.val % 8) :
    ((ix2 (0 : Fin 1) j : S1x8192.Idx) (1 : Fin 2)).val < k0_off1 (grid0.coords t) (1 : Fin 2)
      ∨ k0_off1 (grid0.coords t) (1 : Fin 2) + S1x1024.size (1 : Fin 2) ≤ ((ix2 (0 : Fin 1) j : S1x8192.Idx) (1 : Fin 2)).val := by
  rw [off_at]
  show j.val < (t.val % 8) * 1024 ∨ (t.val % 8) * 1024 + 1024 ≤ j.val
  omega

/-- The tile's column sum at column q of the slice is the sum, over the tile's 1024 rows, of the specification's
    entries in column j of the matrix. -/
theorem tile_colsum (c : Dev nD) (t : Fin cfg0.N) (j : Fin 8192) (q : Fin 1024) (hq : j.val = (t.val % 8) * 1024 + q.val) :
    k0_pay3 (F := Ideal) (grid0.coords t) (tile m c t) (ix2 (0 : Fin 1) q)
      = ∑ p : Fin 1024, Cert.Spec.entN (D m c) ((t.val / 8) * 1024 + p.val) j.val := by
  rw [pay3_apply]
  refine Finset.sum_congr rfl fun p _ => ?_
  rw [pay2_tile m c t p q, hq]

/-- What the body stores at column j of the slice: what the buffer held there plus the tile's column sum. -/
theorem slice_value (c : Dev nD) (t : Fin cfg0.N) (j : Fin 8192) (q : Fin 1024) (hq : j.val = (t.val % 8) * 1024 + q.val)
    (old : Vec Ideal S1x8192 .f32) :
    k0_pay1 (F := Ideal) (k0_pay3 (grid0.coords t) (tile m c t))
        (fun z' => old ((Rect.unit (s := S1x8192) (k0_off1 (grid0.coords t)) S1x1024.size (k0_off1_inb (grid0.coords t))).emb z'))
        (ix2 (0 : Fin 1) q)
      = old (ix2 (0 : Fin 1) j) + ∑ p : Fin 1024, Cert.Spec.entN (D m c) ((t.val / 8) * 1024 + p.val) j.val := by
  rw [pay1_apply, tile_colsum m c t j q hq]
  have he : (Rect.unit (s := S1x8192) (k0_off1 (grid0.coords t)) S1x1024.size (k0_off1_inb (grid0.coords t))).emb (ix2 (0 : Fin 1) q)
      = ix2 (0 : Fin 1) j := by
    funext a
    apply Fin.ext
    have h := in_slice t j q hq a
    show k0_off1 (grid0.coords t) a + 1 * ((ix2 (0 : Fin 1) q : S1x1024.Idx) a).val = ((ix2 (0 : Fin 1) j : S1x8192.Idx) a).val
    omega
  show old _ + _ = _
  rw [he]

/-- Column j lies in tile column j / 1024, at place j - 1024 * (j / 1024) of it. -/
theorem place (t : Fin cfg0.N) (j : Fin 8192) (hj : j.val / 1024 = t.val % 8) :
    ∃ q : Fin 1024, j.val = (t.val % 8) * 1024 + q.val :=
  ⟨⟨j.val - (t.val % 8) * 1024, by omega⟩, by show j.val = (t.val % 8) * 1024 + (j.val - (t.val % 8) * 1024); omega⟩

/-- AFTER THE FIRST POINT: the columns of tile column 0 hold zero plus the first tile's column sums, the others zero. -/
theorem col_first (c : Dev nD) (t : Fin cfg0.N) (j : Fin 8192) (h1 : t.val = 0) :
    (outsAt m c t.val t.isLt).2 (ix2 (0 : Fin 1) j)
      = if j.val / 1024 = 0 then 0 + ∑ p : Fin 1024, Cert.Spec.entN (D m c) p.val j.val else 0 := by
  have e8 : t.val % 8 = 0 := by rw [h1]
  have d8 : t.val / 8 = 0 := by rw [h1]
  rw [outsAt_first m c t h1]; dsimp only
  by_cases hj : j.val / 1024 = 0
  · rw [if_pos hj]
    obtain ⟨q, hq⟩ := place t j (hj.trans e8.symm)
    rw [colFirst_mem c (grid0.coords t) _ _ _ _ _ _ _ _ _ (ix2 (0 : Fin 1) j) (ix2 (0 : Fin 1) q) (in_slice t j q hq),
      slice_value m c t j q hq (k0_pay6 (F := Ideal)), pay6_apply, d8]
    simp only [Nat.zero_mul, Nat.zero_add]
  · rw [if_neg hj, colFirst_not_mem c (grid0.coords t) _ _ _ _ _ _ _ _ _ (ix2 (0 : Fin 1) j) (1 : Fin 2)
      (out_slice t j (fun h => hj (h.trans e8))), pay6_apply]

/-- AFTER A LATER POINT t: the columns of tile column t % 8 hold what they held plus the tile's column sums, the
    others what they held. -/
theorem col_step (c : Dev nD) (t : Fin cfg0.N) (j : Fin 8192) (h1 : t.val ≠ 0) :
    (outsAt m c t.val t.isLt).2 (ix2 (0 : Fin 1) j)
      = if j.val / 1024 = t.val % 8 then
          (outsAt m c (prev t).val (prev t).isLt).2 (ix2 (0 : Fin 1) j)
            + ∑ p : Fin 1024, Cert.Spec.entN (D m c) ((t.val / 8) * 1024 + p.val) j.val
        else (outsAt m c (prev t).val (prev t).isLt).2 (ix2 (0 : Fin 1) j) := by
  by_cases h0 : t.val % 8 = 0
  · rw [outsAt_rowStart m c t h0 h1]; dsimp only
    by_cases hj : j.val / 1024 = t.val % 8
    · rw [if_pos hj]
      obtain ⟨q, hq⟩ := place t j hj
      rw [colRowStart_mem c (grid0.coords t) _ _ _ _ _ _ _ _ _ _ (ix2 (0 : Fin 1) j) (ix2 (0 : Fin 1) q) (in_slice t j q hq),
        slice_value m c t j q hq]
    · rw [if_neg hj, colRowStart_not_mem c (grid0.coords t) _ _ _ _ _ _ _ _ _ _ (ix2 (0 : Fin 1) j) (1 : Fin 2) (out_slice t j hj)]
  · rw [outsAt_inner m c t h0]; dsimp only
    by_cases hj : j.val / 1024 = t.val % 8
    · rw [if_pos hj]
      obtain ⟨q, hq⟩ := place t j hj
      rw [colInner_mem c (grid0.coords t) _ _ _ _ _ _ _ _ _ _ _ (ix2 (0 : Fin 1) j) (ix2 (0 : Fin 1) q) (in_slice t j q hq),
        slice_value m c t j q hq]
    · rw [if_neg hj, colInner_not_mem c (grid0.coords t) _ _ _ _ _ _ _ _ _ _ _ (ix2 (0 : Fin 1) j) (1 : Fin 2) (out_slice t j hj)]

/-! ## Over the grid -/

/-- The second buffer after point t at column j, as a function of two naturals (zero outside the grid or the buffer). -/
def Cn (c : Dev nD) (t j : ℕ) : EReal :=
  if h : t < cfg0.N ∧ j < 8192 then (outsAt m c t h.1).2 (ix2 (0 : Fin 1) ⟨j, h.2⟩) else 0

theorem Cn_eq (c : Dev nD) (t : Fin cfg0.N) (j : Fin 8192) :
    Cn m c t.val j.val = (outsAt m c t.val t.isLt).2 (ix2 (0 : Fin 1) j) := by
  unfold Cn; rw [dif_pos ⟨t.isLt, j.isLt⟩]

/-- AFTER THE LAST POINT column j holds the sum over all 8192 rows: the specification's column sum. -/
theorem col_last (c : Dev nD) (t : Fin cfg0.N) (ht : t.val = 63) (j : Fin 8192) :
    (outsAt m c t.val t.isLt).2 (ix2 (0 : Fin 1) j) = Cert.Spec.colSum (D m c) j := by
  have hN : cfg0.N = 64 := N_eq
  have h := Cert.Spec.col_closed (D m c) (Cn m c)
    (fun j hj => (Cn_eq m c ⟨0, by omega⟩ ⟨j, hj⟩).trans (col_first m c ⟨0, by omega⟩ ⟨j, hj⟩ rfl))
    (fun t ht h1 j hj => by
      have hs := col_step m c ⟨t, by omega⟩ ⟨j, hj⟩ h1
      rw [← Cn_eq m c ⟨t, by omega⟩ ⟨j, hj⟩, ← Cn_eq m c (prev ⟨t, by omega⟩) ⟨j, hj⟩] at hs
      exact hs)
    j.val j.isLt
  rw [← Cn_eq m c t j, ht, h]
  unfold Cert.Spec.colSum
  exact Finset.sum_congr rfl fun k _ => Cert.Spec.entN_fin (D m c) k j

/-! ## The array after the run -/

/-- What the second result array ends holding: at column j the specification's column sum. -/
abbrev G (c : Dev nD) : (⟨S1x8192, .f32⟩ : BufTy).Contents (Elt Ideal) := fun y => Cert.Spec.colSum (D m c) (y 1)

/-- The buffer's block is always the whole array: its block index is (0, 0) at every point. -/
theorem idx_facts : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- An index of the array is in point t's block iff each coordinate is in the block's range on its axis. -/
theorem mem_blk (t : Fin cfg0.N) (i : S1x8192.Idx) :
    i ∈ ((cfg0.win 2).blk t).view.set
      ↔ ∀ a : Fin 2, win0_2.index t a * S1x8192.size a ≤ (i a).val ∧ (i a).val < win0_2.index t a * S1x8192.size a + S1x8192.size a := by
  show i ∈ ((View.whole main_v0_1).slice (win0_2.rect t)).set ↔ _
  rw [View.set_slice_whole, Rect.mem_set_unit]
  exact Iff.rfl

/-- The one write-back, after the last point, writes the column sums. -/
theorem flushed_eq (c : Dev nD) (t : Fin cfg0.N) (hf : (cfg0.win 2).flush t = true) :
    (dats m 0 c).flushed 2 t = ((cfg0.win 2).blk t).view.read (Elt Ideal) (G m c) := by
  have h63 : t.val = 63 := by
    have h := (flush0_2 t).mp hf
    have hN : t.val < 64 := lt_of_lt_of_eq t.isLt N_eq
    omega
  obtain ⟨e0, e1⟩ := idx_facts t
  show (cfg0.win 2).cut (grid0.coords t) ((dats m 0 c).after 2 t) = _
  rw [after_col]
  funext y
  obtain ⟨a, b, rfl⟩ : ∃ (a : Fin 1) (b : Fin 8192), y = ix2 a b := ⟨y 0, y 1, eq_ix2 y⟩
  obtain rfl : a = 0 := Fin.ext (by omega)
  show (outsAt m c t.val t.isLt).2 (ix2 (0 : Fin 1) b) = Cert.Spec.colSum (D m c) ((((cfg0.win 2).blk t).view.emb (ix2 (0 : Fin 1) b)) 1)
  rw [col_last m c t h63 b]
  refine congrArg _ (Fin.ext ?_)
  show b.val = win0_2.index t (1 : Fin 2) * 8192 + 1 * b.val
  omega

/-- Every index of the array is in the last point's block. -/
theorem covered (i : S1x8192.Idx) :
    ∃ t : Fin cfg0.N, (cfg0.win 2).flush t = true ∧ i ∈ ((cfg0.win 2).blk t).view.set := by
  have hN : (63 : ℕ) < cfg0.N := by rw [N_eq]; omega
  refine ⟨⟨63, hN⟩, (flush0_2 ⟨63, hN⟩).mpr rfl, ?_⟩
  obtain ⟨e0, e1⟩ := idx_facts ⟨63, hN⟩
  rw [mem_blk]
  intro a
  match a with
  | ⟨0, _⟩ =>
    show win0_2.index ⟨63, hN⟩ (0 : Fin 2) * 1 ≤ (i 0).val ∧ (i 0).val < win0_2.index ⟨63, hN⟩ (0 : Fin 2) * 1 + 1
    have := idx2_lt0 i
    omega
  | ⟨1, _⟩ =>
    show win0_2.index ⟨63, hN⟩ (1 : Fin 2) * 8192 ≤ (i 1).val ∧ (i 1).val < win0_2.index ⟨63, hN⟩ (1 : Fin 2) * 8192 + 8192
    have := idx2_lt1 i
    omega

/-- THE SECOND RESULT ARRAY after the run holds, at column j, the specification's column sum. -/
theorem cols_final (c : Dev nD) (j : Fin 8192) :
    (dats m 0 c).arrAt 2 cfg0.N (ix2 (0 : Fin 1) j) = Cert.Spec.colSum (D m c) j := by
  rw [(dats m 0 c).arrAt_eq_of_cover 2 (G m c) (flushed_eq m c) covered]

end Cert.KernelIdeal.Cols

end
-- ==== Proof.KIResult.lean ====
/-
  What the kernel's program returns at the ideal instance.

  After the region the first result array holds the row sums and the second the column sums of the matrix of
  exponentials; the host operations after the region add the two, index by index, and apply the closing operations to
  that vector and to the diagonal. So the returned scalar is the specification's closing function of the
  specification's sums and of the gathered diagonal, and the argument array ends as it began.
-/
import proofs.«166390_j58007828300256_1_alg».proof.Proof.KIBody
import proofs.«166390_j58007828300256_1_alg».proof.Proof.KICommon
import proofs.«166390_j58007828300256_1_alg».proof.Proof.KITail
import proofs.«166390_j58007828300256_1_alg».proof.Proof.KIRows
import proofs.«166390_j58007828300256_1_alg».proof.Proof.KICols

set_option maxRecDepth 16384

noncomputable section

namespace Cert.KernelIdeal.Result

open Cert.KernelIdeal Cert.KernelIdeal.Gen Cert.KernelIdeal.Body Cert.KernelIdeal.Sums
open Cert.KernelIdeal.Tail Cert.KernelIdeal.Rows Cert.KernelIdeal.Cols
open Idealize.ShloMosaic Idealize.ShloMosaic.TcCoe Idealize.ShloMosaic.ValueIdx Idealize.SL.Sem

variable (m : (ℓ : Loc nD τ sig) → Buf (Elt Ideal) ℓ) (ρ : Dev nD → PrngReg)

/-- The result's buffer is no array of the pipeline and is not scoped: the run leaves it at what the host
    operations after the region compute. -/
theorem result_mem_rest : main_v23 ∈ Pipeline.restRefs sig (cfgs 0).spec :=
  Pipeline.mem_restRefs_of main_v23 rfl (by decide)

/-- The returned scalar as a function of the matrix: the closing operations of (row sum + column sum) and of the
    diagonal. -/
def value (x : (⟨S8192x8192, .f32⟩ : BufTy).Contents (Elt Ideal)) : (⟨S_, .f32⟩ : BufTy).Contents (Elt Ideal) :=
  Cert.Spec.tail reducesTo_S8192_S_d0 h_S_ (Cert.Spec.sums x) (diagK x)

/-- The host operations after the region, applied to the two accumulated arrays, give that function of the matrix. -/
theorem result_eq (c : Dev nD) :
    Pipeline.afterTail₀ cfgs (dats m) 0 (V0 m) [hostOps1] c main_v23 = value (m ((c.tc : Thread nD τ).loc main_arg0)) := by
  rw [tail_result m (dats m) (A_eq m) c _ _ rfl rfl]
  unfold value
  congr 1
  funext j
  rw [rows_final m c (j 0), cols_final m c (j 0)]
  rfl

/-- Every weakly fair execution terminates with the result at `value` of the matrix and the matrix unchanged. -/
theorem run : θ_run defs (onTc (τ := τ) (main (F := Ideal))) ⟨m, fun _ => 0, ρ⟩ (fun r => ∀ c : Dev nD,
      r.2.mem ((c.tc : Thread nD τ).loc main_v23) = value (m ((c.tc : Thread nD τ).loc main_arg0))
      ∧ r.2.mem ((c.tc : Thread nD τ).loc main_arg0) = m ((c.tc : Thread nD τ).loc main_arg0)) :=
  (θ_run defs _ _).mono (fun _ h c =>
      ⟨((h c).2 main_v23 result_mem_rest).trans (result_eq m c),
       ((h c).1 0).trans (((dats m 0 c).arrAt_in 0 rfl _).trans ((A_eq m c 0).trans (V_main_arg0 m c)))⟩)
    (run_main m ρ)

end Cert.KernelIdeal.Result

end
-- ==== Proof.RefValue.lean ====
/-
  The reference's value is the specification.

  The reference zeroes the diagonal of its input with a scatter of 8192 scalar updates, all the constant zero, update
  `n` addressed by row `n` of an index array whose two columns are both the positions `0 … 8191`. The scatter is a left
  fold over the updates in order; each step overwrites the one element its update lands on. Such a fold, with every
  update the same constant, holds that constant exactly where some update lands and the operand elsewhere (proved here
  for any list of updates, by induction on the list). Row `n` of the index array is `(n, n)` (no position is negative,
  so the "add 8192 where negative" select keeps it), both operand axes are scattered and there is no window, so update
  `n` lands at `(n, n)`: the scatter's result is the input with its diagonal set to zero (`scatter_apply`).

  From there the reference takes exp (1 - ·) element by element, sums each row and each column (each sum starting at the
  zero constant, which is the extended real 0), and adds the two: index by index that is the specification's
  `sums` (`sums_eq`). The closing operations are the same ones the specification carries as `tail`, applied to that
  vector and to the gathered diagonal (`result_eq`).
-/
import proofs.«166390_j58007828300256_1_alg».proof.Proof.Gen.ReferenceIdeal.Read
import proofs.«166390_j58007828300256_1_alg».proof.Proof.Spec
import Idealize.ShloMosaic.Lib.ValueIdx
import Idealize.ShloMosaic.Lib.Pipeline.Value
import Idealize.ShloMosaic.PureOps.Ideal.Laws
import Idealize.ShloMosaic.Lib.StableHlo.Predicate

noncomputable section

namespace Cert.ReferenceIdeal.RefValue

open Cert.ReferenceIdeal Cert.ReferenceIdeal.Gen Cert.ReferenceIdeal.Read Idealize.ShloMosaic

/-! ## A left fold that overwrites one index per step

The step of the fold takes the function built so far and one item `n`; the item names at most one index, `g n`, and the
step puts the constant `c` there and leaves every other index as it was. After the fold an index holds `c` if some item
of the list named it, and otherwise what the starting function held. -/

section Fold
variable {ι α β : Type}

/-- An index no item of the list names keeps the starting function's value. -/
theorem foldl_miss (step : (ι → α) → β → (ι → α)) (g : β → Option ι)
    (hmiss : ∀ r n i, g n ≠ some i → step r n i = r i)
    (l : List β) (x : ι → α) (i : ι) (h : ∀ n ∈ l, g n ≠ some i) : l.foldl step x i = x i := by
  induction l generalizing x with
  | nil => rfl
  | cons n l ih =>
    rw [List.foldl_cons, ih _ (fun m hm => h m (List.mem_cons_of_mem _ hm)),
      hmiss _ _ _ (h n List.mem_cons_self)]

/-- An index some item of the list names holds the constant. -/
theorem foldl_hit (step : (ι → α) → β → (ι → α)) (g : β → Option ι) (c : α)
    (hhit : ∀ r n i, g n = some i → step r n i = c)
    (hmiss : ∀ r n i, g n ≠ some i → step r n i = r i)
    (l : List β) (x : ι → α) (i : ι) (h : ∃ n ∈ l, g n = some i) : l.foldl step x i = c := by
  induction l generalizing x with
  | nil => obtain ⟨n, hn, _⟩ := h; cases hn
  | cons n l ih =>
    rw [List.foldl_cons]
    by_cases hl : ∃ m ∈ l, g m = some i
    · exact ih _ hl
    · have hl' : ∀ m ∈ l, g m ≠ some i := fun m hm hg => hl ⟨m, hm, hg⟩
      rw [foldl_miss step g hmiss l _ i hl']
      obtain ⟨m, hm, hg⟩ := h
      rcases List.mem_cons.1 hm with rfl | hm
      · exact hhit _ _ _ hg
      · exact absurd hg (hl' m hm)

end Fold

/-! ## A scatter that writes one constant

With the body "return the update" and every update the same value `c`, the scatter's result at an index is `c` if some
update index lands there, and the operand's element if none does. -/

section ScatterConst
variable {α : Type} {s si u : Shape} {w : Nat}

/-- One step of the scatter's fold at an index the update lands on. -/
theorem scatter_step_hit (d : ScatterDims s si u) (idx : IVec si w) (upd : u.Idx → α) (c : α) (hc : ∀ j, upd j = c)
    (r : s.Idx → α) (n : Fin u.numel) (i : s.Idx) (hg : d.resultIdx? (u.rowMajor.symm n) idx = some i) :
    (match d.resultIdx? (u.rowMajor.symm n) idx with
      | some i₀ => fun i' => if i' = i₀ then (fun (_ b : α) => b) (r i₀) (upd (u.rowMajor.symm n)) else r i'
      | none => r) i = c := by
  rw [hg]
  show (if i = i then upd (u.rowMajor.symm n) else r i) = c
  rw [if_pos rfl, hc]

/-- One step of the scatter's fold at an index the update does not land on. -/
theorem scatter_step_miss (d : ScatterDims s si u) (idx : IVec si w) (upd : u.Idx → α)
    (r : s.Idx → α) (n : Fin u.numel) (i : s.Idx) (hg : d.resultIdx? (u.rowMajor.symm n) idx ≠ some i) :
    (match d.resultIdx? (u.rowMajor.symm n) idx with
      | some i₀ => fun i' => if i' = i₀ then (fun (_ b : α) => b) (r i₀) (upd (u.rowMajor.symm n)) else r i'
      | none => r) i = r i := by
  cases hr : d.resultIdx? (u.rowMajor.symm n) idx with
  | none => rfl
  | some i₀ =>
    show (if i = i₀ then upd (u.rowMajor.symm n) else r i) = r i
    rw [if_neg (fun h => hg (by rw [hr, h]))]

/-- Where some update index lands, the scatter holds the constant. -/
theorem scatter_const_hit (d : ScatterDims s si u) (x : s.Idx → α) (idx : IVec si w) (upd : u.Idx → α) (c : α)
    (hc : ∀ j, upd j = c) (i : s.Idx) (h : ∃ j : u.Idx, d.resultIdx? j idx = some i) :
    Host.scatter d (fun _ b => b) x idx upd i = c := by
  obtain ⟨j, hj⟩ := h
  unfold Host.scatter
  refine foldl_hit _ (fun n => d.resultIdx? (u.rowMajor.symm n) idx) c
    (fun r n i' hg => scatter_step_hit d idx upd c hc r n i' hg)
    (fun r n i' hg => scatter_step_miss d idx upd r n i' hg) _ x i
    ⟨u.rowMajor j, List.mem_finRange _, ?_⟩
  show d.resultIdx? (u.rowMajor.symm (u.rowMajor j)) idx = some i
  rw [Equiv.symm_apply_apply, hj]

/-- Where no update index lands, the scatter holds the operand's element. -/
theorem scatter_const_miss (d : ScatterDims s si u) (x : s.Idx → α) (idx : IVec si w) (upd : u.Idx → α)
    (i : s.Idx) (h : ∀ j : u.Idx, d.resultIdx? j idx ≠ some i) :
    Host.scatter d (fun _ b => b) x idx upd i = x i := by
  unfold Host.scatter
  exact foldl_miss _ (fun n => d.resultIdx? (u.rowMajor.symm n) idx)
    (fun r n i' hg => scatter_step_miss d idx upd r n i' hg) _ x i (fun n _ => h _)

end ScatterConst

/-! ## Where the updates land

The scatter writes scalars (no window axes in the updates, both operand axes inserted); update `n` reads its start index
from row `n` of the index array, component `a` for operand axis `a`. When row `n` of the index array is `(n, n)`, update
`n` lands on the diagonal element `(n, n)`. -/

section Diag

/-- The scatter's dimension numbers, by a short name. -/
abbrev dS : ScatterDims S8192x8192 S8192x2 S8192 := scatter_S8192x8192_S8192x2_S8192_n_01_01_1

/-- The place in the index array where update `n` reads component `c` of its start index: row `n`, column `c`. -/
theorem siIdx_eq (n : Fin 8192) (c : Fin 2) (hc : c.val < dS.scatterDimsToOperandDims.length) :
    dS.siIdx (ValueIdx.ix1 n) ⟨c.val, hc⟩ = ValueIdx.ix2 n c := by
  funext b
  refine Fin.ext ?_
  match b with
  | ⟨0, _⟩ => rfl
  | ⟨1, _⟩ => rfl

/-- The start of update `n` on operand axis `a`: the index array at row `n`, column `a`, read signed. -/
theorem start_eq (idx : IVec S8192x2 32) (n : Fin 8192) (a : Fin 2) :
    dS.start (ValueIdx.ix1 n) idx a = (idx (ValueIdx.ix2 n a)).toInt := by
  unfold ScatterDims.start
  match a with
  | ⟨0, _⟩ =>
    rw [dif_pos (show (⟨0, by decide⟩ : Fin 2) ∈ dS.scatterDimsToOperandDims from List.mem_cons_self)]
    exact congrArg (fun v => (idx v).toInt) (siIdx_eq n ⟨0, by decide⟩ _)
  | ⟨1, _⟩ =>
    rw [dif_pos (show (⟨1, by decide⟩ : Fin 2) ∈ dS.scatterDimsToOperandDims from
      List.mem_cons_of_mem _ List.mem_cons_self)]
    exact congrArg (fun v => (idx v).toInt) (siIdx_eq n ⟨1, by decide⟩ _)

/-- Both operand axes are inserted: the window coordinate is zero on each. -/
theorem window_eq (n : Fin 8192) (a : Fin 2) : dS.window (ValueIdx.ix1 n) a = 0 := by
  unfold ScatterDims.window
  rw [dif_neg]
  show a ∉ ([] : List (Fin 2))
  exact List.not_mem_nil

/-- With row `n` of the index array equal to `(n, n)`, update `n` lands at the diagonal element `(n, n)`. -/
theorem resultIdx_diag (idx : IVec S8192x2 32)
    (h0 : ∀ n : Fin 8192, idx (ValueIdx.ix2 n (0 : Fin 2)) = BitVec.ofNat 32 n.val)
    (h1 : ∀ n : Fin 8192, idx (ValueIdx.ix2 n (1 : Fin 2)) = BitVec.ofNat 32 n.val) (n : Fin 8192) :
    dS.resultIdx? (ValueIdx.ix1 n) idx = some (ValueIdx.ix2 n n) := by
  have hn : (BitVec.ofNat 32 n.val).toInt = (n.val : Int) :=
    StableHlo.Predicate.toInt_ofNat_small n.val (by have := n.isLt; omega)
  have hs : ∀ a : Fin 2, dS.start (ValueIdx.ix1 n) idx a + (dS.window (ValueIdx.ix1 n) a : Int) = (n.val : Int) := by
    intro a
    rw [start_eq, window_eq]
    match a with
    | ⟨0, _⟩ => rw [show (⟨0, by decide⟩ : Fin 2) = 0 from rfl, h0 n, hn]; simp
    | ⟨1, _⟩ => rw [show (⟨1, by decide⟩ : Fin 2) = 1 from rfl, h1 n, hn]; simp
  have hin : ∀ a : Fin 2, 0 ≤ dS.start (ValueIdx.ix1 n) idx a + (dS.window (ValueIdx.ix1 n) a : Int)
      ∧ dS.start (ValueIdx.ix1 n) idx a + (dS.window (ValueIdx.ix1 n) a : Int) < (S8192x8192.size a : Nat) := by
    intro a
    rw [hs a]
    refine ⟨by omega, ?_⟩
    match a with
    | ⟨0, _⟩ => show (n.val : Int) < (8192 : Nat); have := n.isLt; omega
    | ⟨1, _⟩ => show (n.val : Int) < (8192 : Nat); have := n.isLt; omega
  unfold ScatterDims.resultIdx?
  rw [dif_pos hin]
  refine congrArg some (funext fun a => Fin.ext ?_)
  show (dS.start (ValueIdx.ix1 n) idx a + (dS.window (ValueIdx.ix1 n) a : Int)).toNat = (ValueIdx.ix2 n n a).val
  rw [hs a]
  match a with
  | ⟨0, _⟩ => exact Int.toNat_natCast _
  | ⟨1, _⟩ => exact Int.toNat_natCast _

end Diag

/-! ## The index array: row `n` is `(n, n)`

Each column of the index array is the positions `0 … 8191` passed through "add 8192 where negative"; no position is
negative, so each column is the positions themselves, and the two columns are joined along axis 1. -/

section IndexArray

/-- A position below 8192 is not negative as a signed word, so the wrap-around select returns it unchanged. -/
theorem wrap_sel (n : Fin 8192) :
    Scalar.select (IntOp.cmpi .slt (BitVec.ofNat 32 n.val) 0#32) (IntOp.addi (BitVec.ofNat 32 n.val) 8192#32)
      (BitVec.ofNat 32 n.val) = BitVec.ofNat 32 n.val := by
  have hlt : ¬ IntOp.cmpi .slt (BitVec.ofNat 32 n.val) 0#32 = 1#1 := by
    rw [StableHlo.Predicate.slt_iff_toNat (by rw [BitVec.toNat_ofNat]; have := n.isLt; omega) (by decide)]
    exact Nat.not_lt_zero _
  rw [ValueIdx.eq_zero_of_ne_one hlt, ValueIdx.select_zero]

/-- The first column's source vector at position `n` is `n`. -/
theorem v19_apply (n : Fin 8192) : val_main_v19 (F := Ideal) (ValueIdx.ix1 n) = BitVec.ofNat 32 n.val := by
  rw [val_main_v19_apply, val_main_v16_apply, val_main_v18_apply, val_main_v0_apply, val_main_v15_apply,
    val_main_c_3_apply, val_main_v17_apply, val_main_c_4_apply]
  exact wrap_sel n

/-- The second column's source vector at position `n` is `n`. -/
theorem v24_apply (n : Fin 8192) : val_main_v24 (F := Ideal) (ValueIdx.ix1 n) = BitVec.ofNat 32 n.val := by
  rw [val_main_v24_apply, val_main_v21_apply, val_main_v23_apply, val_main_v0_apply, val_main_v20_apply,
    val_main_c_5_apply, val_main_v22_apply, val_main_c_6_apply]
  exact wrap_sel n

/-- The first column, as an 8192 × 1 array, at row `n`. -/
theorem v25_apply (n : Fin 8192) :
    val_main_v25 (F := Ideal) (ValueIdx.ix2 n (0 : Fin 1)) = BitVec.ofNat 32 n.val := by
  rw [val_main_v25_apply]
  exact (congrArg (val_main_v19 (F := Ideal))
    (funext fun a => match a with | ⟨0, _⟩ => rfl : idx_main_v25 (ValueIdx.ix2 n (0 : Fin 1)) = ValueIdx.ix1 n)).trans
    (v19_apply n)

/-- The second column, as an 8192 × 1 array, at row `n`. -/
theorem v26_apply (n : Fin 8192) :
    val_main_v26 (F := Ideal) (ValueIdx.ix2 n (0 : Fin 1)) = BitVec.ofNat 32 n.val := by
  rw [val_main_v26_apply]
  exact (congrArg (val_main_v24 (F := Ideal))
    (funext fun a => match a with | ⟨0, _⟩ => rfl : idx_main_v26 (ValueIdx.ix2 n (0 : Fin 1)) = ValueIdx.ix1 n)).trans
    (v24_apply n)

/-- The index array at row `n`, column 0: the first piece of the join. -/
theorem v27_col0 (n : Fin 8192) :
    val_main_v27 (F := Ideal) (ValueIdx.ix2 n (0 : Fin 2)) = BitVec.ofNat 32 n.val := by
  unfold val_main_v27
  refine (concatenate_pair_apply_left (1 : Fin 2) (val_main_v25 (F := Ideal)) (val_main_v26 (F := Ideal))
    concatenates_S8192x1_S8192x1_S8192x2_d1 (ValueIdx.ix2 n (0 : Fin 2)) rfl (ValueIdx.ix2 n (0 : Fin 1))
    (fun b => match b with | ⟨0, _⟩ => rfl | ⟨1, _⟩ => rfl)).trans (v25_apply n)

/-- The index array at row `n`, column 1: the second piece of the join, at its column 0. -/
theorem v27_col1 (n : Fin 8192) :
    val_main_v27 (F := Ideal) (ValueIdx.ix2 n (1 : Fin 2)) = BitVec.ofNat 32 n.val := by
  unfold val_main_v27
  refine (concatenate_pair_apply_right (1 : Fin 2) (val_main_v25 (F := Ideal)) (val_main_v26 (F := Ideal))
    concatenates_S8192x1_S8192x1_S8192x2_d1 (ValueIdx.ix2 n (1 : Fin 2)) rfl rfl (ValueIdx.ix2 n (0 : Fin 1))
    (fun b => match b with | ⟨0, _⟩ => fun _ => rfl | ⟨1, _⟩ => fun h => absurd rfl h) rfl).trans (v26_apply n)

end IndexArray

/-! ## The scatter read at an element

Every update is the zero constant and update `n` lands at `(n, n)`: the scatter's result is the operand with its
diagonal set to zero. -/

section ScatterRead

/-- Every update is the zero constant. -/
theorem upd_const (j : S8192.Idx) : val_main_v28 (F := Ideal) j = Cert.Spec.zero := by
  rw [val_main_v28_apply, val_main_cst_apply]
  rfl

/-- The scatter's result at `(i, k)`: zero on the diagonal, the operand's element off it. -/
theorem scatter_apply (x : (⟨S8192x8192, .f32⟩ : BufTy).Contents (Elt Ideal)) (i k : Fin 8192) :
    Read.val_main_v29 (F := Ideal) x (ValueIdx.ix2 i k)
      = if i.val = k.val then Cert.Spec.zero else x (ValueIdx.ix2 i k) := by
  unfold val_main_v29
  by_cases hik : i.val = k.val
  · rw [if_pos hik]
    obtain rfl : i = k := Fin.ext hik
    exact scatter_const_hit dS x (val_main_v27 (F := Ideal)) (val_main_v28 (F := Ideal)) Cert.Spec.zero upd_const _
      ⟨ValueIdx.ix1 i, resultIdx_diag _ v27_col0 v27_col1 i⟩
  · rw [if_neg hik]
    refine scatter_const_miss dS x (val_main_v27 (F := Ideal)) (val_main_v28 (F := Ideal)) _ (fun j hj => hik ?_)
    obtain ⟨m, rfl⟩ : ∃ m : Fin 8192, j = ValueIdx.ix1 m := ⟨j 0, ValueIdx.eq_ix1 j⟩
    rw [resultIdx_diag _ v27_col0 v27_col1 m] at hj
    have h := Option.some.inj hj
    have e0 : m = i := congrFun h 0
    have e1 : m = k := congrFun h 1
    rw [← e0, ← e1]

end ScatterRead

/-! ## The reference's value is the specification -/

section Value

/-- An element of the reference's matrix of exponentials is the specification's entry. -/
theorem v32_apply (x : (⟨S8192x8192, .f32⟩ : BufTy).Contents (Elt Ideal)) (i k : Fin 8192) :
    Read.val_main_v32 (F := Ideal) x (ValueIdx.ix2 i k) = Cert.Spec.ent (Cert.Spec.mat x) i k := by
  rw [val_main_v32_apply, val_main_v31_apply, val_main_v30_apply, val_main_cst_7_apply, scatter_apply]
  rfl

/-- The reference's vector of row sums plus column sums is the specification's. -/
theorem sums_eq (x : (⟨S8192x8192, .f32⟩ : BufTy).Contents (Elt Ideal)) :
    Read.val_main_v35 (F := Ideal) x = Cert.Spec.sums x := by
  funext j
  obtain ⟨i, rfl⟩ : ∃ i : Fin 8192, j = ValueIdx.ix1 i := ⟨j 0, ValueIdx.eq_ix1 j⟩
  have h33 : ∀ k : Fin 8192, idx_main_v33 (ValueIdx.ix1 i) k = ValueIdx.ix2 i k := fun k =>
    funext fun a => match a with | ⟨0, _⟩ => rfl | ⟨1, _⟩ => rfl
  have h34 : ∀ k : Fin 8192, idx_main_v34 (ValueIdx.ix1 i) k = ValueIdx.ix2 k i := fun k =>
    funext fun a => match a with | ⟨0, _⟩ => rfl | ⟨1, _⟩ => rfl
  rw [val_main_v35_apply, val_main_v33_apply, val_main_v34_apply, val_main_cst_8_apply, val_main_cst_9_apply]
  simp only [h33, h34, v32_apply, Ideal.ofBits_def, Ideal.ofBits_zero_f32, zero_add, Ideal.addf_def]
  rfl

/-- The reference's result is the shared closing operations applied to the specification's vector and the diagonal. -/
theorem result_eq (x : (⟨S8192x8192, .f32⟩ : BufTy).Contents (Elt Ideal)) :
    Read.val_main_v40 (F := Ideal) x
      = Cert.Spec.tail reducesTo_S8192_S_d0 h_S_ (Cert.Spec.sums x) (Read.val_main_v14 (F := Ideal) x) := by
  rw [← sums_eq]
  rfl

end Value

end Cert.ReferenceIdeal.RefValue

end
-- ==== Proof.lean ====
/-
  The certificate: the Pallas kernel's program and the jnp reference compute the same n-pair loss over the extended
  reals.

  With E(i, k) = exp (1 - b(i, k)), b the input matrix with its diagonal set to zero, both programs return the closing
  function (logarithm, plus the diagonal, squared, summed, divided by 2 * 8192) of s(i) = sum over k of E(i, k) plus
  sum over k of E(k, i). The reference forms s by two whole reductions of the matrix E. The kernel walks an 8 x 8 grid
  of 1024 x 1024 tiles, accumulating each tile's row sums into a buffer restarted with each row of tiles and each
  tile's column sums into one slice of a buffer kept over the whole grid; its diagonal test on global coordinates is
  the reference's scatter of zeros onto the diagonal. The two agree because a finite sum of extended reals may be
  cut into blocks and re-associated freely (addition there is commutative and associative, zero is neutral): no
  finiteness of the input is used. The diagonal is gathered by the same host operations in both programs and is
  carried as one function of the matrix. The three frames come with the runs; the idealization rewrote nothing.
-/
import proofs.«166390_j58007828300256_1_alg».proof.Defs
import proofs.«166390_j58007828300256_1_alg».proof.Proof.Gen.Kernel
import proofs.«166390_j58007828300256_1_alg».proof.Proof.Gen.KernelIdeal
import proofs.«166390_j58007828300256_1_alg».proof.Proof.Gen.ReferenceIdeal
import proofs.«166390_j58007828300256_1_alg».proof.Proof.Gen.Pre_finite_inputs
import proofs.«166390_j58007828300256_1_alg».proof.Proof.Gen.ReferenceIdeal.Run
import proofs.«166390_j58007828300256_1_alg».proof.Proof.Gen.ReferenceIdeal.Read
import proofs.«166390_j58007828300256_1_alg».proof.Proof.KBody
import proofs.«166390_j58007828300256_1_alg».proof.Proof.KIBody
import proofs.«166390_j58007828300256_1_alg».proof.Proof.KIResult
import proofs.«166390_j58007828300256_1_alg».proof.Proof.RefValue
import Idealize.ShloMosaic.Adequacy
import Idealize.ShloMosaic.Init

set_option maxRecDepth 16384

noncomputable section

namespace Cert.Proof

open Idealize.ShloMosaic Idealize.SL.Sem

/-- The word-level kernel program runs and leaves its argument unchanged. -/
theorem frame_k : Cert.frame_Kernel := fun m ρ _ => Cert.Kernel.Body.frame m ρ

/-- So does its idealization. -/
theorem frame_ki : Cert.frame_KernelIdeal := fun m ρ _ => Cert.KernelIdeal.Body.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The gather of the diagonal is one function of the matrix in both programs: the same operations on the same
    index chain. -/
theorem diag_eq (x : (⟨Cert.ReferenceIdeal.S8192x8192, .f32⟩ : BufTy).Contents (Elt Ideal)) :
    Cert.ReferenceIdeal.Read.val_main_v14 (F := Ideal) x = Cert.KernelIdeal.Tail.diagK x := rfl

/-- Both programs end at the closing function of the specification's sums and of the diagonal, of matrices that agree. -/
theorem algebraic : Cert.algebraic_KernelIdeal_ReferenceIdeal := by
  intro m ρ m' ρ' _ hagree
  refine ⟨fun c => Cert.KernelIdeal.Result.value (m ((c.tc : Thread Cert.KernelIdeal.nD Cert.KernelIdeal.τ).loc Cert.KernelIdeal.main_arg0)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.ReferenceIdeal.RefValue.result_eq, hagree c, diag_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
